-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x21x64 : Shape := ⟨3, ![4096, 21, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S4096x21x64 : S_.BroadcastsInDim S4096x21x64 (![] : Fin 0 → Fin S4096x21x64.rank)
  reducesTo_S4096x21x64_S_d0_1_2 : S4096x21x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64x64 .f32) (main_arg8 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S1 .f32) (main_arg5 : FVec F S64x64 .f32) (main_arg6 : FVec F S64 .f32) (main_arg7 : FVec F S64x64 .f32) (main_arg8 : FVec F S64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S4096x21x64 .f32) (main_arg1 : FVec F S64x64 .f32) (main_arg2 : FVec F S64 .f32) (main_arg3 : FVec F S1x64 .f32) (main_arg4 : FVec F S1 .f32) (main_arg5 : FVec F S64x64 .f32) (main_arg6 : FVec F S64 .f32) (main_arg7 : FVec F S64x64 .f32) (main_arg8 : FVec F S64 .f32) : IVec S_ 1 :=
  let main_v0 : FVec F S4096x21x64 .f32 := Host.absf main_arg0
  let main_cst : FVec F S_ .f32 := constant S_ .f32 0x7F800000#32
  let main_v1 : FVec F S4096x21x64 .f32 := broadcastInDim S4096x21x64 ![] bcast_S_S4096x21x64 main_cst
  let main_v2 : IVec S4096x21x64 1 := cmpf .olt main_v0 main_v1
  let main_c : IVec S_ 1 := constantI S_ 1 1#1
  let main_v3 : IVec S_ 1 := (fun x v => Host.reduce IntOp.andi x v reducesTo_S4096x21x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_arg7 main_arg8 main_v13 main_v16
-- ==== Kernel.lean ====
abbrev S4096x21x64 : Shape := ⟨3, ![4096, 21, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S4096x20x64 : Shape := ⟨3, ![4096, 20, 64]⟩
abbrev S64x21x64 : Shape := ⟨3, ![64, 21, 64]⟩
abbrev S64x20x64 : Shape := ⟨3, ![64, 20, 64]⟩
abbrev S64x1x64 : Shape := ⟨3, ![64, 1, 64]⟩
abbrev S64x20x1x64 : Shape := ⟨4, ![64, 20, 1, 64]⟩
abbrev S64x1x20x64 : Shape := ⟨4, ![64, 1, 20, 64]⟩
abbrev S64x20x20x64 : Shape := ⟨4, ![64, 20, 20, 64]⟩
abbrev S25600x64 : Shape := ⟨2, ![25600, 64]⟩
abbrev S25600 : Shape := ⟨1, ![25600]⟩
abbrev S64x20x20 : Shape := ⟨3, ![64, 20, 20]⟩
abbrev S64x20 : Shape := ⟨2, ![64, 20]⟩
abbrev S64x20x1 : Shape := ⟨3, ![64, 20, 1]⟩
abbrev S1280x64 : Shape := ⟨2, ![1280, 64]⟩

abbrev nBuf : Space → Nat
  | .hbm => 10
  | .vmem => 12
  | .smem => 0
  | _ => 0

abbrev bufTy : (tb : Table) → Fin (tcTables nBuf tb) → BufTy
  | .hbm, ⟨0, _⟩ => ⟨S4096x21x64, .f32⟩
  | .hbm, ⟨1, _⟩ => ⟨S64x64, .f32⟩
  | .hbm, ⟨2, _⟩ => ⟨S64, .f32⟩
  | .hbm, ⟨3, _⟩ => ⟨S1x64, .f32⟩
  | .hbm, ⟨4, _⟩ => ⟨S1, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S4096x20x64, .f32⟩
  | .local _ .vmem, ⟨0, _⟩ => ⟨S64x21x64, .f32⟩
  | .local _ .vmem, ⟨1, _⟩ => ⟨S64x21x64, .f32⟩
  | .local _ .vmem, ⟨2, _⟩ => ⟨S64x64, .f32⟩
  | .local _ .vmem, ⟨3, _⟩ => ⟨S64, .f32⟩
  | .local _ .vmem, ⟨4, _⟩ => ⟨S1x64, .f32⟩
  | .local _ .vmem, ⟨5, _⟩ => ⟨S1, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S64x20x64, .f32⟩
  | .local _ .vmem, ⟨11, _⟩ => ⟨S64x20x64, .f32⟩
  | _, _ => ⟨S4096x21x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x21x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x20x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S64x21x64_S64x1x64_0_0_0 : ∀ a, (![0, 0, 0] : Fin 3 → Nat) a + S64x1x64.size a ≤ S64x21x64.size a
  h_S64x1x64 : 0 < S64x1x64.numel
  inb_S64x21x64_S64x20x64_0_1_0 : ∀ a, (![0, 1, 0] : Fin 3 → Nat) a + S64x20x64.size a ≤ S64x21x64.size a
  h_S64x20x64 : 0 < S64x20x64.numel
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  inb_S1x64_S1x64_0_0 : ∀ a, (![0, 0] : Fin 2 → Nat) a + S1x64.size a ≤ S1x64.size a
  h_S1x64 : 0 < S1x64.numel
  inb_S1_S1_0 : ∀ a, (![0] : Fin 1 → Nat) a + S1.size a ≤ S1.size a
  h_S1 : 0 < S1.numel
  bitsLt_bf16_f32 : FTy.bits .bf16 < FTy.bits .f32
  shapeCasts_S64x20x64_S64x20x1x64 : S64x20x64.ShapeCasts S64x20x1x64
  shapeCasts_S64x20x64_S64x1x20x64 : S64x20x64.ShapeCasts S64x1x20x64
  broadcasts_S64x20x1x64_S64x20x20x64 : S64x20x1x64.Broadcasts S64x20x20x64
  broadcasts_S64x1x20x64_S64x20x20x64 : S64x1x20x64.Broadcasts S64x20x20x64
  shapeCasts_S64x20x20x64_S25600x64 : S64x20x20x64.ShapeCasts S25600x64
  transposes_S64x64_p1_0_S64x64 : S64x64.Transposes [1, 0] S64x64
  shapeCasts_S64_S1x64 : S64.ShapeCasts S1x64
  broadcasts_S1x64_S25600x64 : S1x64.Broadcasts S25600x64
  shapeCasts_S1x64_S64 : S1x64.ShapeCasts S64
  reduces_S25600x64_S25600 : S25600x64.Reduces [1] S25600
  inpos_S1_p0 : ∀ a, (![0] : Fin 1 → Nat) a < S1.size a
  shapeCasts_S25600_S64x20x20 : S25600.ShapeCasts S64x20x20
  reduces_S64x20x20_S64x20 : S64x20x20.Reduces [2] S64x20
  shapeCasts_S64x20_S64x20x1 : S64x20.ShapeCasts S64x20x1
  broadcasts_S64x20x1_S64x20x20 : S64x20x1.Broadcasts S64x20x20
  shapeCasts_S64x20x64_S1280x64 : S64x20x64.ShapeCasts S1280x64
  broadcasts_S1x64_S1280x64 : S1x64.Broadcasts S1280x64
  shapeCasts_S1280x64_S64x20x64 : S1280x64.ShapeCasts S64x20x64
  broadcasts_S64x1x64_S64x20x64 : S64x1x64.Broadcasts S64x20x64
  inb_S64x20x64_S64x20x64_0_0_0 : ∀ a, (![0, 0, 0] : Fin 3 → Nat) a + S64x20x64.size a ≤ S64x20x64.size a
  dot_S25600x64_S64x64_S25600x64_1_0_0_1_n_n_wf : DotDims.WF S25600x64 S64x64 S25600x64 [1] [0] [0] [1] [] []
  dot_S64x20x20_S64x20x64_S64x20x64_2_1_1_2_0_0_wf : DotDims.WF S64x20x20 S64x20x64 S64x20x64 [2] [1] [1] [2] [0] [0]
  dot_S1280x64_S64x64_S1280x64_1_0_0_1_n_n_wf : DotDims.WF S1280x64 S64x64 S1280x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x21x64.size a ≤ S4096x21x64.size a
  hwx0_0 : ∀ i : grid0.Coords, EltTy.bits .f32 = 32 ∨ (Rect.block (s := S4096x21x64) S64x21x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x20x64.size a ≤ S4096x20x64.size a
  hwx0_9 : ∀ i : grid0.Coords, EltTy.bits .f32 = 32 ∨ (Rect.block (s := S4096x20x64) S64x20x64.size (cc0_transform_9 i) (hinb0_9 i)).WholeWords (EltTy.packing .f32)

variable [Facts₀]

def dot_S25600x64_S64x64_S25600x64_1_0_0_1_n_n : DotDims S25600x64 S64x64 S25600x64 where
  lhsContracting := [1]
  rhsContracting := [0]
  lhsNonContracting := [0]
  rhsNonContracting := [1]
  lhsBatch := []
  rhsBatch := []
  wf := dot_S25600x64_S64x64_S25600x64_1_0_0_1_n_n_wf
def dot_S64x20x20_S64x20x64_S64x20x64_2_1_1_2_0_0 : DotDims S64x20x20 S64x20x64 S64x20x64 where
  lhsContracting := [2]
  rhsContracting := [1]
  lhsNonContracting := [1]
  rhsNonContracting := [2]
  lhsBatch := [0]
  rhsBatch := [0]
  wf := dot_S64x20x20_S64x20x64_S64x20x64_2_1_1_2_0_0_wf
def dot_S1280x64_S64x64_S1280x64_1_0_0_1_n_n : DotDims S1280x64 S64x64 S1280x64 where
  lhsContracting := [1]
  rhsContracting := [0]
  lhsNonContracting := [0]
  rhsNonContracting := [1]
  lhsBatch := []
  rhsBatch := []
  wf := dot_S1280x64_S64x64_S1280x64_1_0_0_1_n_n_wf

abbrev win0_0 : Pipeline.Window sig grid0 :=
  Pipeline.Window.ofSpec (Memref.whole main_arg0) S64x21x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S64x20x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x21x64 : Shape := ⟨3, ![4096, 21, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S4096x1x64 : Shape := ⟨3, ![4096, 1, 64]⟩
abbrev S4096x20x64 : Shape := ⟨3, ![4096, 20, 64]⟩
abbrev S4096x20x1x64 : Shape := ⟨4, ![4096, 20, 1, 64]⟩
abbrev S4096x1x20x64 : Shape := ⟨4, ![4096, 1, 20, 64]⟩
abbrev S4096x20x20x64 : Shape := ⟨4, ![4096, 20, 20, 64]⟩
abbrev S1x1x1x64 : Shape := ⟨4, ![1, 1, 1, 64]⟩
abbrev S_ : Shape := ⟨0, ![]⟩
abbrev S4096x20x20x1 : Shape := ⟨4, ![4096, 20, 20, 1]⟩
abbrev S1x1x1x1 : Shape := ⟨4, ![1, 1, 1, 1]⟩
abbrev S4096x20x1 : Shape := ⟨3, ![4096, 20, 1]⟩
abbrev S4096x20x1x1 : Shape := ⟨4, ![4096, 20, 1, 1]⟩
abbrev S1x1x64 : Shape := ⟨3, ![1, 1, 64]⟩

abbrev nBuf : Space → Nat
  | .hbm => 70
  | .vmem => 0
  | .smem => 0
  | _ => 0

abbrev bufTy : (tb : Table) → Fin (tcTables nBuf tb) → BufTy
  | .hbm, ⟨0, _⟩ => ⟨S4096x21x64, .f32⟩
  | .hbm, ⟨1, _⟩ => ⟨S64x64, .f32⟩
  | .hbm, ⟨2, _⟩ => ⟨S64, .f32⟩
  | .hbm, ⟨3, _⟩ => ⟨S1x64, .f32⟩
  | .hbm, ⟨4, _⟩ => ⟨S1, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S4096x1x64, .f32⟩
  | .hbm, ⟨10, _⟩ => ⟨S4096x20x64, .f32⟩
  | .hbm, ⟨11, _⟩ => ⟨S4096x20x64, .f32⟩
  | .hbm, ⟨12, _⟩ => ⟨S4096x20x64, .f32⟩
  | .hbm, ⟨13, _⟩ => ⟨S4096x20x1x64, .f32⟩
  | .hbm, ⟨14, _⟩ => ⟨S4096x1x20x64, .f32⟩
  | .hbm, ⟨15, _⟩ => ⟨S4096x20x20x64, .f32⟩
  | .hbm, ⟨16, _⟩ => ⟨S4096x20x20x64, .f32⟩
  | .hbm, ⟨17, _⟩ => ⟨S4096x20x20x64, .f32⟩
  | .hbm, ⟨18, _⟩ => ⟨S4096x20x20x64, .f32⟩
  | .hbm, ⟨19, _⟩ => ⟨S1x1x1x64, .f32⟩
  | .hbm, ⟨20, _⟩ => ⟨S4096x20x20x64, .f32⟩
  | .hbm, ⟨21, _⟩ => ⟨S4096x20x20x64, .f32⟩
  | .hbm, ⟨22, _⟩ => ⟨S_, .f32⟩
  | .hbm, ⟨23, _⟩ => ⟨S4096x20x20x64, .f32⟩
  | .hbm, ⟨24, _⟩ => ⟨S4096x20x20x64, .i1⟩
  | .hbm, ⟨25, _⟩ => ⟨S_, .f32⟩
  | .hbm, ⟨26, _⟩ => ⟨S4096x20x20x64, .f32⟩
  | .hbm, ⟨27, _⟩ => ⟨S4096x20x20x64, .f32⟩
  | .hbm, ⟨28, _⟩ => ⟨S4096x20x20x64, .f32⟩
  | .hbm, ⟨29, _⟩ => ⟨S4096x20x20x1, .f32⟩
  | .hbm, ⟨30, _⟩ => ⟨S1x1x1x1, .f32⟩
  | .hbm, ⟨31, _⟩ => ⟨S4096x20x20x1, .f32⟩
  | .hbm, ⟨32, _⟩ => ⟨S4096x20x20x1, .f32⟩
  | .hbm, ⟨33, _⟩ => ⟨S_, .f32⟩
  | .hbm, ⟨34, _⟩ => ⟨S4096x20x1, .f32⟩
  | .hbm, ⟨35, _⟩ => ⟨S_, .f32⟩
  | .hbm, ⟨36, _⟩ => ⟨S4096x20x1, .f32⟩
  | .hbm, ⟨37, _⟩ => ⟨S4096x20x1, .f32⟩
  | .hbm, ⟨38, _⟩ => ⟨S4096x20x1x1, .f32⟩
  | .hbm, ⟨39, _⟩ => ⟨S4096x20x20x1, .f32⟩
  | .hbm, ⟨40, _⟩ => ⟨S4096x20x20x1, .f32⟩
  | .hbm, ⟨41, _⟩ => ⟨S4096x20x20x1, .f32⟩
  | .hbm, ⟨42, _⟩ => ⟨S_, .f32⟩
  | .hbm, ⟨43, _⟩ => ⟨S4096x20x1, .f32⟩
  | .hbm, ⟨44, _⟩ => ⟨S4096x20x1x1, .f32⟩
  | .hbm, ⟨45, _⟩ => ⟨S4096x20x20x1, .f32⟩
  | .hbm, ⟨46, _⟩ => ⟨S4096x20x20x1, .f32⟩
  | .hbm, ⟨47, _⟩ => ⟨S4096x1x20x64, .f32⟩
  | .hbm, ⟨48, _⟩ => ⟨S4096x20x20x64, .f32⟩
  | .hbm, ⟨49, _⟩ => ⟨S4096x20x20x64, .f32⟩
  | .hbm, ⟨50, _⟩ => ⟨S4096x20x20x64, .f32⟩
  | .hbm, ⟨51, _⟩ => ⟨S_, .f32⟩
  | .hbm, ⟨52, _⟩ => ⟨S4096x20x64, .f32⟩
  | .hbm, ⟨53, _⟩ => ⟨S4096x20x64, .f32⟩
  | .hbm, ⟨54, _⟩ => ⟨S1x1x64, .f32⟩
  | .hbm, ⟨55, _⟩ => ⟨S4096x20x64, .f32⟩
  | .hbm, ⟨56, _⟩ => ⟨S4096x20x64, .f32⟩
  | .hbm, ⟨57, _⟩ => ⟨S4096x20x64, .f32⟩
  | .hbm, ⟨58, _⟩ => ⟨S4096x20x64, .f32⟩
  | .hbm, ⟨59, _⟩ => ⟨S1x1x64, .f32⟩
  | .hbm, ⟨60, _⟩ => ⟨S4096x20x64, .f32⟩
  | .hbm, ⟨61, _⟩ => ⟨S4096x20x64, .f32⟩
  | .hbm, ⟨62, _⟩ => ⟨S4096x20x64, .f32⟩
  | .hbm, ⟨63, _⟩ => ⟨S_, .f32⟩
  | .hbm, ⟨64, _⟩ => ⟨S4096x20x64, .f32⟩
  | .hbm, ⟨65, _⟩ => ⟨S4096x20x64, .i1⟩
  | .hbm, ⟨66, _⟩ => ⟨S_, .f32⟩
  | .hbm, ⟨67, _⟩ => ⟨S4096x20x64, .f32⟩
  | .hbm, ⟨68, _⟩ => ⟨S4096x20x64, .f32⟩
  | .hbm, ⟨69, _⟩ => ⟨S4096x20x64, .f32⟩
  | _, _ => ⟨S4096x21x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_cst_0 : Ref sig .tc := ⟨.hbm, 66, rfl⟩
abbrev main_call1_v2 : Ref sig .tc := ⟨.hbm, 67, rfl⟩
abbrev main_call1_v3 : Ref sig .tc := ⟨.hbm, 68, rfl⟩
abbrev main_v44 : Ref sig .tc := ⟨.hbm, 69, rfl⟩

abbrev nD : Nat := 1
abbrev τ : Topo := Topo.v7x

variable {F : FTy → Type} [FloatOps F]

class Facts₀ : Prop where
  slices_S4096x21x64_S4096x1x64_0_0_0 : S4096x21x64.Slices ![0, 0, 0] S4096x1x64
  slices_S4096x21x64_S4096x20x64_0_1_0 : S4096x21x64.Slices ![0, 1, 0] S4096x20x64
  bcast_S4096x1x64_S4096x20x64_0_1_2 : S4096x1x64.BroadcastsInDim S4096x20x64 (![0, 1, 2] : Fin 3 → Fin S4096x20x64.rank)
  bcast_S4096x20x64_S4096x20x1x64_0_1_3 : S4096x20x64.BroadcastsInDim S4096x20x1x64 (![0, 1, 3] : Fin 3 → Fin S4096x20x1x64.rank)
  bcast_S4096x20x64_S4096x1x20x64_0_2_3 : S4096x20x64.BroadcastsInDim S4096x1x20x64 (![0, 2, 3] : Fin 3 → Fin S4096x1x20x64.rank)
  bcast_S4096x20x1x64_S4096x20x20x64_0_1_2_3 : S4096x20x1x64.BroadcastsInDim S4096x20x20x64 (![0, 1, 2, 3] : Fin 4 → Fin S4096x20x20x64.rank)
  bcast_S4096x1x20x64_S4096x20x20x64_0_1_2_3 : S4096x1x20x64.BroadcastsInDim S4096x20x20x64 (![0, 1, 2, 3] : Fin 4 → Fin S4096x20x20x64.rank)
  bcast_S64_S1x1x1x64_3 : S64.BroadcastsInDim S1x1x1x64 (![3] : Fin 1 → Fin S1x1x1x64.rank)
  bcast_S1x1x1x64_S4096x20x20x64_0_1_2_3 : S1x1x1x64.BroadcastsInDim S4096x20x20x64 (![0, 1, 2, 3] : Fin 4 → Fin S4096x20x20x64.rank)
  bcast_S_S4096x20x20x64 : S_.BroadcastsInDim S4096x20x20x64 (![] : Fin 0 → Fin S4096x20x20x64.rank)
  bcast_S1_S1x1x1x1_3 : S1.BroadcastsInDim S1x1x1x1 (![3] : Fin 1 → Fin S1x1x1x1.rank)
  bcast_S1x1x1x1_S4096x20x20x1_0_1_2_3 : S1x1x1x1.BroadcastsInDim S4096x20x20x1 (![0, 1, 2, 3] : Fin 4 → Fin S4096x20x20x1.rank)
  reducesTo_S4096x20x20x1_S4096x20x1_d2 : S4096x20x20x1.ReducesTo [2] S4096x20x1
  h_S_ : 0 < S_.numel
  bcast_S_S4096x20x1 : S_.BroadcastsInDim S4096x20x1 (![] : Fin 0 → Fin S4096x20x1.rank)
  bcast_S4096x20x1_S4096x20x1x1_0_1_3 : S4096x20x1.BroadcastsInDim S4096x20x1x1 (![0, 1, 3] : Fin 3 → Fin S4096x20x1x1.rank)
  bcast_S4096x20x1x1_S4096x20x20x1_0_1_2_3 : S4096x20x1x1.BroadcastsInDim S4096x20x20x1 (![0, 1, 2, 3] : Fin 4 → Fin S4096x20x20x1.rank)
  bcast_S4096x20x20x1_S4096x20x20x64_0_1_2_3 : S4096x20x20x1.BroadcastsInDim S4096x20x20x64 (![0, 1, 2, 3] : Fin 4 → Fin S4096x20x20x64.rank)
  reducesTo_S4096x20x20x64_S4096x20x64_d2 : S4096x20x20x64.ReducesTo [2] S4096x20x64
  bcast_S64_S1x1x64_2 : S64.BroadcastsInDim S1x1x64 (![2] : Fin 1 → Fin S1x1x64.rank)
  bcast_S1x1x64_S4096x20x64_0_1_2 : S1x1x64.BroadcastsInDim S4096x20x64 (![0, 1, 2] : Fin 3 → Fin S4096x20x64.rank)
  bcast_S_S4096x20x64 : S_.BroadcastsInDim S4096x20x64 (![] : Fin 0 → Fin S4096x20x64.rank)
  dot_S4096x20x20x64_S64x64_S4096x20x20x64_3_1_012_0_n_n_wf : DotDims.WF S4096x20x20x64 S64x64 S4096x20x20x64 [3] [1] [0, 1, 2] [0] [] []
  dot_S4096x20x20x64_S1x64_S4096x20x20x1_3_1_012_0_n_n_wf : DotDims.WF S4096x20x20x64 S1x64 S4096x20x20x1 [3] [1] [0, 1, 2] [0] [] []
  dot_S4096x20x64_S64x64_S4096x20x64_2_1_01_0_n_n_wf : DotDims.WF S4096x20x64 S64x64 S4096x20x64 [2] [1] [0, 1] [0] [] []

variable [Facts₀]

def dot_S4096x20x20x64_S64x64_S4096x20x20x64_3_1_012_0_n_n : DotDims S4096x20x20x64 S64x64 S4096x20x20x64 where
  lhsContracting := [3]
  rhsContracting := [1]
  lhsNonContracting := [0, 1, 2]
  rhsNonContracting := [0]
  lhsBatch := []
  rhsBatch := []
  wf := dot_S4096x20x20x64_S64x64_S4096x20x20x64_3_1_012_0_n_n_wf
def dot_S4096x20x20x64_S1x64_S4096x20x20x1_3_1_012_0_n_n : DotDims S4096x20x20x64 S1x64 S4096x20x20x1 where
  lhsContracting := [3]
  rhsContracting := [1]
  lhsNonContracting := [0, 1, 2]
  rhsNonContracting := [0]
  lhsBatch := []
  rhsBatch := []
  wf := dot_S4096x20x20x64_S1x64_S4096x20x20x1_3_1_012_0_n_n_wf
def dot_S4096x20x64_S64x64_S4096x20x64_2_1_01_0_n_n : DotDims S4096x20x64 S64x64 S4096x20x64 where
  lhsContracting := [2]
  rhsContracting := [1]
  lhsNonContracting := [0, 1]
  rhsNonContracting := [0]
  lhsBatch := []
  rhsBatch := []
  wf := dot_S4096x20x64_S64x64_S4096x20x64_2_1_01_0_n_n_wf

class Facts : Prop extends Facts₀ where

variable [Facts]
-- ==== Proof.ItemAttention.lean ====
/-
  Pairwise additive attention over a user's items, one batch row at a time, as plain functions on the extended reals.

  A batch row of the embeddings holds 21 vectors of width 64: slot 0 is the user, slots 1 to 20 are the items.
  For items i and j the pair's hidden vector is a dense layer of the SUM of the two item vectors, followed by a
  leaky rectifier; its score is the inner product of that hidden vector with one weight row, plus a bias. For each
  i the scores over j are turned into weights by a softmax (shifted by the row's maximum, which is itself taken
  from minus infinity), the items are averaged with those weights, the average goes through a dense layer, the
  item is added back, a second dense layer follows, the product of user and item is added, and a leaky rectifier
  closes. Both programs compute exactly this formula; they differ only in how the arrays are laid out and in the
  order of the summations, which on the extended reals is immaterial (addition is commutative and associative
  there, infinities included). No distributive law and no cancellation is used anywhere, so finiteness of the
  inputs is never needed.

  The three float words the programs write are kept as words (zero, the rectifier's negative slope, minus
  infinity): the same word stands on both sides and is never evaluated.
-/
import Idealize.ShloMosaic.PureOps.Ideal
import Idealize.ShloMosaic.Lib.ValueIdx

noncomputable section

open scoped BigOperators

namespace Cert.ItemAttention

open Idealize.ShloMosaic Idealize.ShloMosaic.ValueIdx

/-- The float word of zero, as the extended real it denotes. -/
abbrev zeroW : EReal := Ideal.ofBits .f32 0x00000000#32
/-- The rectifier's negative slope (the float nearest to one hundredth), as the extended real it denotes. -/
abbrev slopeW : EReal := Ideal.ofBits .f32 0x3C23D70A#32
/-- The float word of minus infinity, as the extended real it denotes. -/
abbrev negInfW : EReal := Ideal.ofBits .f32 0xFF800000#32

/-- The leaky rectifier: z where z is at least zero, slope times z elsewhere. -/
def lrelu (z : EReal) : EReal := Scalar.select (Ideal.cmp .oge z zeroW) z (slopeW * z)

/-- A dense layer with the weight matrix's ROWS as output units: unit e of input v is the sum over d of v d * w e d, plus
    the bias. -/
def dense (w : Fin 64 → Fin 64 → EReal) (wb : Fin 64 → EReal) (v : Fin 64 → EReal) (e : Fin 64) : EReal :=
  (∑ d : Fin 64, v d * w e d) + wb e

/-- The maximum of a row of twenty scores, taken from minus infinity, and once more against minus infinity. -/
def rowTop (sc : Fin 20 → EReal) : EReal := max negInfW ((Finset.univ : Finset (Fin 20)).fold max negInfW sc)

/-- The softmax of a row of twenty scores, shifted by the row's maximum. -/
def softmaxRow (sc : Fin 20 → EReal) (j : Fin 20) : EReal :=
  Ideal.div (Ideal.exp (sc j - rowTop sc)) (∑ j' : Fin 20, Ideal.exp (sc j' - rowTop sc))

/-- The position of the pair (i, j) of block row bb among the block's 64 * 20 * 20 pairs laid out in row-major order. -/
abbrev pairPos (bb : Fin 64) (i j : Fin 20) : Fin 25600 :=
  ⟨bb.val * 400 + i.val * 20 + j.val, by have := bb.isLt; have := i.isLt; have := j.isLt; omega⟩

section Row

-- One batch row: the user's vector, and the twenty item vectors.
variable (us : Fin 64 → EReal) (it : Fin 20 → Fin 64 → EReal)

/-- The hidden vector of the pair (i, j): a dense layer of the sum of the two items, then the leaky rectifier. -/
def pairHidden (aw : Fin 64 → Fin 64 → EReal) (awb : Fin 64 → EReal) (i j : Fin 20) (e : Fin 64) : EReal :=
  lrelu (dense aw awb (fun d => it i d + it j d) e)

/-- The score of the pair (i, j): the hidden vector against one weight row, plus a bias. -/
def score (aw : Fin 64 → Fin 64 → EReal) (awb : Fin 64 → EReal) (ah : Fin 64 → EReal) (ahb : EReal) (i j : Fin 20) : EReal :=
  (∑ e : Fin 64, pairHidden it aw awb i j e * ah e) + ahb

/-- Item i's neighbours averaged with the weights al i. -/
def attended (al : Fin 20 → Fin 20 → EReal) (i : Fin 20) (d : Fin 64) : EReal := ∑ j : Fin 20, al i j * it j d

/-- The output at (i, e) from the attention weights: the weighted average through the first dense layer, the item added
    back, the second dense layer, the user-item product added, the leaky rectifier. -/
def outFrom (al : Fin 20 → Fin 20 → EReal) (w1 : Fin 64 → Fin 64 → EReal) (w1b : Fin 64 → EReal)
    (w2 : Fin 64 → Fin 64 → EReal) (w2b : Fin 64 → EReal) (i : Fin 20) (e : Fin 64) : EReal :=
  lrelu (us e * it i e + dense w2 w2b (fun d => dense w1 w1b (attended it al i) d + it i d) e)

/-- The whole row's output at (i, e): the output from the softmax of the row's scores. -/
def out (aw : Fin 64 → Fin 64 → EReal) (awb : Fin 64 → EReal) (ah : Fin 64 → EReal) (ahb : EReal)
    (w1 : Fin 64 → Fin 64 → EReal) (w1b : Fin 64 → EReal) (w2 : Fin 64 → Fin 64 → EReal) (w2b : Fin 64 → EReal)
    (i : Fin 20) (e : Fin 64) : EReal :=
  outFrom us it (fun i' => softmaxRow (score it aw awb ah ahb i')) w1 w1b w2 w2b i e

end Row

/-! ## The arrays as the programs hold them

An embeddings array of any batch extent holds, per batch row, 21 vectors of width 64: slot 0 is the user, slots 1 to 20
are the items. -/

/-- The user vector of batch row b (slot 0). -/
def userRow {nB : Nat} (a0 : (⟨3, ![nB, 21, 64]⟩ : Shape).Idx → EReal) (b : Fin nB) : Fin 64 → EReal :=
  fun d => a0 (ix3 b 0 d)
/-- The item vectors of batch row b (slot i + 1 for item i). -/
def itemRows {nB : Nat} (a0 : (⟨3, ![nB, 21, 64]⟩ : Shape).Idx → EReal) (b : Fin nB) : Fin 20 → Fin 64 → EReal :=
  fun i d => a0 (ix3 b i.succ d)
/-- A 64 by 64 weight array by its two coordinates. -/
def mat (a : (⟨2, ![64, 64]⟩ : Shape).Idx → EReal) : Fin 64 → Fin 64 → EReal := fun p q => a (ix2 p q)
/-- A bias array of width 64 by its coordinate. -/
def vec (a : (⟨1, ![64]⟩ : Shape).Idx → EReal) : Fin 64 → EReal := fun q => a (ix1 q)
/-- A one-row weight array by its column. -/
def rowVec (a : (⟨2, ![1, 64]⟩ : Shape).Idx → EReal) : Fin 64 → EReal := fun q => a (ix2 0 q)
/-- A one-element array's element. -/
def scal (a : (⟨1, ![1]⟩ : Shape).Idx → EReal) : EReal := a (ix1 0)

section Arrays

variable {nB : Nat} (a0 : (⟨3, ![nB, 21, 64]⟩ : Shape).Idx → EReal) (a1 : (⟨2, ![64, 64]⟩ : Shape).Idx → EReal)
  (a2 : (⟨1, ![64]⟩ : Shape).Idx → EReal) (a3 : (⟨2, ![1, 64]⟩ : Shape).Idx → EReal) (a4 : (⟨1, ![1]⟩ : Shape).Idx → EReal)
  (a5 : (⟨2, ![64, 64]⟩ : Shape).Idx → EReal) (a6 : (⟨1, ![64]⟩ : Shape).Idx → EReal)
  (a7 : (⟨2, ![64, 64]⟩ : Shape).Idx → EReal) (a8 : (⟨1, ![64]⟩ : Shape).Idx → EReal)

/-- The score of the pair (i, j) of batch row b. -/
def scoreAt (b : Fin nB) (i j : Fin 20) : EReal := score (itemRows a0 b) (mat a1) (vec a2) (rowVec a3) (scal a4) i j

/-- The output at (b, i, e) from given attention weights of batch row b. -/
def outFromAt (al : Fin 20 → Fin 20 → EReal) (b : Fin nB) (i : Fin 20) (e : Fin 64) : EReal :=
  outFrom (userRow a0 b) (itemRows a0 b) al (mat a5) (vec a6) (mat a7) (vec a8) i e

/-- The output at (b, i, e). -/
def resultAt (b : Fin nB) (i : Fin 20) (e : Fin 64) : EReal :=
  out (userRow a0 b) (itemRows a0 b) (mat a1) (vec a2) (rowVec a3) (scal a4) (mat a5) (vec a6) (mat a7) (vec a8) i e

/-- The output is the output from the softmax of the scores. -/
theorem resultAt_eq (b : Fin nB) (i : Fin 20) (e : Fin 64) :
    resultAt a0 a1 a2 a3 a4 a5 a6 a7 a8 b i e
      = outFromAt a0 a5 a6 a7 a8 (fun i' => softmaxRow (scoreAt a0 a1 a2 a3 a4 b i')) b i e := rfl

/-- The whole result array. -/
def result : (⟨3, ![nB, 20, 64]⟩ : Shape).Idx → EReal := fun j => resultAt a0 a1 a2 a3 a4 a5 a6 a7 a8 (j 0) (j 1) (j 2)

theorem result_apply (b : Fin nB) (i : Fin 20) (e : Fin 64) :
    result a0 a1 a2 a3 a4 a5 a6 a7 a8 (ix3 b i e) = resultAt a0 a1 a2 a3 a4 a5 a6 a7 a8 b i e := rfl

end Arrays

/-- The result at a batch row depends on that row of the embeddings alone: a block of batch rows read out of a larger
    array gives the larger array's result at the rows it holds. -/
theorem resultAt_of_rows {nB nB' : Nat} (x0 : (⟨3, ![nB, 21, 64]⟩ : Shape).Idx → EReal) (a0 : (⟨3, ![nB', 21, 64]⟩ : Shape).Idx → EReal)
    (a1 : (⟨2, ![64, 64]⟩ : Shape).Idx → EReal) (a2 : (⟨1, ![64]⟩ : Shape).Idx → EReal) (a3 : (⟨2, ![1, 64]⟩ : Shape).Idx → EReal)
    (a4 : (⟨1, ![1]⟩ : Shape).Idx → EReal) (a5 : (⟨2, ![64, 64]⟩ : Shape).Idx → EReal) (a6 : (⟨1, ![64]⟩ : Shape).Idx → EReal)
    (a7 : (⟨2, ![64, 64]⟩ : Shape).Idx → EReal) (a8 : (⟨1, ![64]⟩ : Shape).Idx → EReal) (bb : Fin nB) (b : Fin nB')
    (h : ∀ (n : Fin 21) (d : Fin 64), x0 (ix3 bb n d) = a0 (ix3 b n d)) (i : Fin 20) (e : Fin 64) :
    resultAt x0 a1 a2 a3 a4 a5 a6 a7 a8 bb i e = resultAt a0 a1 a2 a3 a4 a5 a6 a7 a8 b i e := by
  have hu : userRow x0 bb = userRow a0 b := funext fun d => h 0 d
  have hi : itemRows x0 bb = itemRows a0 b := funext fun i => funext fun d => h i.succ d
  unfold resultAt
  rw [hu, hi]

end Cert.ItemAttention

end
-- ==== Proof.KernelScoresRead.lean ====
/-
  The kernel body's pair scores read at an index, at the ideal values: over a block of 64 batch rows the body lays the 64 * 20 * 20 pairs out in one row-major axis; the entry at the position of the pair (i, j) of block row bb, bias added, is the score of that pair.
-/
import proofs.«179504_j42984032698946_1_alg».proof.Proof.Gen.KernelIdeal.Skeleton
import proofs.«179504_j42984032698946_1_alg».proof.Proof.ItemAttention
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KernelValue

open Cert.KernelIdeal Cert.KernelIdeal.Gen Idealize.ShloMosaic Idealize.ShloMosaic.ValueIdx Cert.ItemAttention

/-! ### The layout steps, each read at one index

The body never moves a number: every reshaping, broadcast and transposition reads, at an index of its result, one index
of its operand. Each step is stated once over an arbitrary operand. -/

section Layout
variable {α : Type}

/-- A unit axis put in third place and then stretched to twenty: the entry at (b, i, j, d) is the operand's at
    (b, i, d), whatever j. -/
private theorem spreadThird_apply (x : S64x20x64.Idx → α) (h1 : S64x20x64.ShapeCasts S64x20x1x64)
    (h2 : S64x20x1x64.Broadcasts S64x20x20x64) (bb : Fin 64) (i j : Fin 20) (d : Fin 64) :
    broadcastTo S64x20x20x64 (shapeCast S64x20x1x64 x h1) h2 (ix4 bb i j d) = x (ix3 bb i d) := by
  refine (broadcastTo_apply _ h2 (ix4 bb i j d) (ix4 bb i (0 : Fin 1) d) fun a => ?_).trans ?_
  · match a with
    | ⟨0, _⟩ => rfl
    | ⟨1, _⟩ => rfl
    | ⟨2, _⟩ => rfl
    | ⟨3, _⟩ => rfl
  · refine shapeCast_apply x h1 _ (ix3 bb i d) ?_
    rw [Shape.rowMajor_val_three, Shape.rowMajor_val_four]
    show (bb.val * 20 + i.val) * 64 + d.val = ((bb.val * 20 + i.val) * 1 + 0) * 64 + d.val
    omega

/-- A unit axis put in second place and then stretched to twenty: the entry at (b, i, j, d) is the operand's at
    (b, j, d), whatever i. -/
private theorem spreadSecond_apply (x : S64x20x64.Idx → α) (h1 : S64x20x64.ShapeCasts S64x1x20x64)
    (h2 : S64x1x20x64.Broadcasts S64x20x20x64) (bb : Fin 64) (i j : Fin 20) (d : Fin 64) :
    broadcastTo S64x20x20x64 (shapeCast S64x1x20x64 x h1) h2 (ix4 bb i j d) = x (ix3 bb j d) := by
  refine (broadcastTo_apply _ h2 (ix4 bb i j d) (ix4 bb (0 : Fin 1) j d) fun a => ?_).trans ?_
  · match a with
    | ⟨0, _⟩ => rfl
    | ⟨1, _⟩ => rfl
    | ⟨2, _⟩ => rfl
    | ⟨3, _⟩ => rfl
  · refine shapeCast_apply x h1 _ (ix3 bb j d) ?_
    rw [Shape.rowMajor_val_three, Shape.rowMajor_val_four]
    show (bb.val * 20 + j.val) * 64 + d.val = ((bb.val * 1 + 0) * 20 + j.val) * 64 + d.val
    omega

/-- The three leading axes run together into one: row bb * 400 + i * 20 + j of the flat array is the entry (bb, i, j). -/
private theorem flatten_apply (x : S64x20x20x64.Idx → α) (h : S64x20x20x64.ShapeCasts S25600x64) (bb : Fin 64)
    (i j : Fin 20) (d : Fin 64) : shapeCast S25600x64 x h (ix2 (pairPos bb i j) d) = x (ix4 bb i j d) := by
  refine shapeCast_apply x h _ (ix4 bb i j d) ?_
  rw [Shape.rowMajor_val_four, Shape.rowMajor_val_two]
  show ((bb.val * 20 + i.val) * 20 + j.val) * 64 + d.val = (bb.val * 400 + i.val * 20 + j.val) * 64 + d.val
  omega

/-- A transposed square array at (d, e) is the array at (e, d). -/
private theorem swap_apply (x : S64x64.Idx → α) (h : S64x64.Transposes [1, 0] S64x64) (d e : Fin 64) :
    transpose S64x64 [1, 0] x h (ix2 d e) = x (ix2 e d) := by
  refine transpose_apply _ x h (ix2 d e) (ix2 e d) fun b => ?_
  match b with
  | ⟨0, _⟩ => rfl
  | ⟨1, _⟩ => rfl

/-- One row stretched down 25600 rows: every row reads the one row. -/
private theorem rowSpread_apply (x : S1x64.Idx → α) (h : S1x64.Broadcasts S25600x64) (r : Fin 25600) (e : Fin 64) :
    broadcastTo S25600x64 x h (ix2 r e) = x (ix2 (0 : Fin 1) e) := by
  refine broadcastTo_apply x h (ix2 r e) (ix2 (0 : Fin 1) e) fun a => ?_
  match a with
  | ⟨0, _⟩ => rfl
  | ⟨1, _⟩ => rfl

/-- A vector of 64 viewed as a one-row array: the row's column e is the vector's entry e. -/
private theorem asRow_apply (x : S64.Idx → α) (h : S64.ShapeCasts S1x64) (e : Fin 64) :
    shapeCast S1x64 x h (ix2 (0 : Fin 1) e) = x (ix1 e) := by
  refine shapeCast_apply x h _ (ix1 e) ?_
  rw [Shape.rowMajor_val_one, Shape.rowMajor_val_two]
  show e.val = 0 * 64 + e.val
  omega

end Layout

/-! ### The product, read at an index

The body's one matrix product contracts the second axis of its left operand with the first axis of its right operand;
the left operand's rows and the right operand's columns are the result's two axes. -/

private theorem lhs_row (i : S25600x64.Idx) (q : dot_S25600x64_S64x64_S25600x64_1_0_0_1_n_n.contr.Idx) :
    (dot_S25600x64_S64x64_S25600x64_1_0_0_1_n_n.lhsIdx i q 0).val = (i 0).val := by
  unfold DotDims.lhsIdx
  rw [dif_neg (show ¬(0 : Fin S25600x64.rank) ∈ dot_S25600x64_S64x64_S25600x64_1_0_0_1_n_n.lhsBatch by decide),
    dif_pos (show (0 : Fin S25600x64.rank) ∈ dot_S25600x64_S64x64_S25600x64_1_0_0_1_n_n.lhsNonContracting by decide)]
  rfl

private theorem lhs_inner (i : S25600x64.Idx) (q : dot_S25600x64_S64x64_S25600x64_1_0_0_1_n_n.contr.Idx) :
    (dot_S25600x64_S64x64_S25600x64_1_0_0_1_n_n.lhsIdx i q 1).val = (q ⟨0, by decide⟩).val :=
  dot_S25600x64_S64x64_S25600x64_1_0_0_1_n_n.lhsIdx_val_of_single rfl i q

private theorem rhs_inner (i : S25600x64.Idx) (q : dot_S25600x64_S64x64_S25600x64_1_0_0_1_n_n.contr.Idx) :
    (dot_S25600x64_S64x64_S25600x64_1_0_0_1_n_n.rhsIdx i q 0).val = (q ⟨0, by decide⟩).val :=
  dot_S25600x64_S64x64_S25600x64_1_0_0_1_n_n.rhsIdx_val_of_single rfl i q

private theorem rhs_col (i : S25600x64.Idx) (q : dot_S25600x64_S64x64_S25600x64_1_0_0_1_n_n.contr.Idx) :
    (dot_S25600x64_S64x64_S25600x64_1_0_0_1_n_n.rhsIdx i q 1).val = (i 1).val := by
  unfold DotDims.rhsIdx
  rw [dif_neg (show ¬(1 : Fin S64x64.rank) ∈ dot_S25600x64_S64x64_S25600x64_1_0_0_1_n_n.rhsBatch by decide),
    dif_pos (show (1 : Fin S64x64.rank) ∈ dot_S25600x64_S64x64_S25600x64_1_0_0_1_n_n.rhsNonContracting by decide)]
  rfl

/-- The product into a zero accumulator at (r, e): the sum over d of the left operand at (r, d) times the right operand
    at (d, e). -/
private theorem product_apply (a : FVec Ideal S25600x64 .bf16) (b : FVec Ideal S64x64 .bf16) (r : Fin 25600) (e : Fin 64) :
    matmul dot_S25600x64_S64x64_S25600x64_1_0_0_1_n_n none a b (constant (F := Ideal) S25600x64 .f32 0x00000000#32) (ix2 r e)
      = ∑ d : Fin 64, a (ix2 r d) * b (ix2 d e) := by
  simp only [matmul]
  rw [Ideal.matmul_constant_zero_apply, ← Equiv.sum_comp (ValueIdx.contrEquiv1 dot_S25600x64_S64x64_S25600x64_1_0_0_1_n_n 64 rfl rfl).symm]
  refine Finset.sum_congr rfl fun k _ => ?_
  have hk := ValueIdx.contrEquiv1_symm_val dot_S25600x64_S64x64_S25600x64_1_0_0_1_n_n 64 rfl rfl k
  have el : dot_S25600x64_S64x64_S25600x64_1_0_0_1_n_n.lhsIdx (ix2 r e) ((ValueIdx.contrEquiv1 dot_S25600x64_S64x64_S25600x64_1_0_0_1_n_n 64 rfl rfl).symm k) = ix2 r k :=
    funext fun c => Fin.ext (by
      match c with
      | ⟨0, _⟩ => exact lhs_row _ _
      | ⟨1, _⟩ => exact (lhs_inner _ _).trans hk)
  have er : dot_S25600x64_S64x64_S25600x64_1_0_0_1_n_n.rhsIdx (ix2 r e) ((ValueIdx.contrEquiv1 dot_S25600x64_S64x64_S25600x64_1_0_0_1_n_n 64 rfl rfl).symm k) = ix2 k e :=
    funext fun c => Fin.ext (by
      match c with
      | ⟨0, _⟩ => exact (rhs_inner _ _).trans hk
      | ⟨1, _⟩ => exact rhs_col _ _)
  rw [el, er]

/-! ### The lane sum and the rectifier -/

/-- The sum along the second axis, from the zero word, at row r: the sum over e of the entries (r, e). -/
private theorem laneSum_apply (x : FVec Ideal S25600x64 .f32) (h : S25600x64.Reduces [1] S25600) (r : Fin 25600) :
    multiReduction .add [1] S25600 x 0x00000000#32 h (.inl rfl) rfl (ix1 r) = ∑ e : Fin 64, x (ix2 r e) := by
  refine (Ideal.multiReduction_add_single x _ h _ _ (ix1 r)).trans ?_
  refine Finset.sum_congr rfl fun e _ => congrArg x (funext fun c => Fin.ext ?_)
  match c with
  | ⟨0, _⟩ => rfl
  | ⟨1, _⟩ => rfl

/-- The body's select between z and slope times z on the comparison of z with zero is the leaky rectifier, entry by entry. -/
private theorem rectifier_apply (x : FVec Ideal S25600x64 .f32) (k : S25600x64.Idx) :
    select (cmpf .oge x (broadcast S25600x64 (Scalar.ofBits (F := Ideal) .f32 0x00000000#32))) x
        (mulf (broadcast S25600x64 (Scalar.ofBits (F := Ideal) .f32 0x3C23D70A#32)) x) k
      = lrelu (x k) := rfl

theorem pairScore_apply (v1 : Vec Ideal S64x20x64 .f32) (v2 : Vec Ideal S64x64 .f32) (v3 : Vec Ideal S64 .f32)
    (v4 : Vec Ideal S1x64 .f32) (v5 : Vec Ideal S1 .f32) (bb : Fin 64) (i j : Fin 20) :
    k0_pay5 (F := Ideal) v1 v2 v3 v4 (ix1 (pairPos bb i j)) + k0_pay6 (F := Ideal) v5 (ix1 (pairPos bb i j))
      = score (fun i' d => v1 (ix3 bb i' d)) (mat v2) (vec v3) (rowVec v4) (scal v5) i j := by
  -- the bias: the one-element array's element, read out and spread over every position
  have hb : k0_pay6 (F := Ideal) v5 (ix1 (pairPos bb i j)) = scal v5 := by
    unfold k0_pay6 scal extractAt
    exact congrArg v5 (funext fun a => match a with | ⟨0, _⟩ => rfl)
  unfold score pairHidden dense
  refine congrArg₂ (fun a b : EReal => a + b) ?_ hb
  unfold k0_pay5 k0_pay2
  dsimp only
  -- the lane sum, entry by entry: rectified hidden unit e times weight e
  refine (laneSum_apply _ _ _).trans (Finset.sum_congr rfl fun e _ => ?_)
  refine (mulf_apply _ _ _).trans (congrArg₂ (fun a b : EReal => a * b) ?_ ?_)
  · refine (rectifier_apply _ _).trans (congrArg lrelu ?_)
    refine (addf_apply _ _ _).trans (congrArg₂ (fun a b : EReal => a + b) ?_ ?_)
    · -- the dense layer's sum: pair sums against the weight matrix's row e
      refine (product_apply _ _ _ _).trans (Finset.sum_congr rfl fun d _ => congrArg₂ (fun a b : EReal => a * b) ?_ ?_)
      · refine (flatten_apply _ _ bb i j d).trans ?_
        refine (addf_apply _ _ _).trans (congrArg₂ (fun a b : EReal => a + b) ?_ ?_)
        · exact spreadThird_apply _ _ _ bb i j d
        · exact spreadSecond_apply _ _ _ bb i j d
      · exact swap_apply _ _ d e
    · exact (rowSpread_apply _ _ _ e).trans (asRow_apply _ _ e)
  · refine (rowSpread_apply _ _ _ e).trans ?_
    exact congrFun (shapeCast_shapeCast v4 _ _) _

end Cert.KernelIdeal.KernelValue

end
-- ==== Proof.KernelOutRead.lean ====
/-
  The kernel body's stored value read at an index, at the ideal values, from the loaded vectors and the flat array of pair scores: the softmax over each row of twenty scores, the weighted average of the items, the two dense layers, the user-item product and the leaky rectifier.

  The value is a chain of stages, and each stage is read at an index by coordinates as a plain function of the stage
  before it: the flat scores seen as a [64,20,20] array; the row maximum (a fold of max from the word of minus infinity,
  then once more against that word) and the row sum over the last axis, each repeated along that axis; the quotient of
  the exponentials by their row sum, which is the shifted softmax of the row; per batch row the product of the weights'
  20 by 20 matrix with the items' 20 by 64 matrix, a sum over the twenty neighbours; a dense layer taken on the
  [1280,64] view of a [64,20,64] array (row bb * 20 + i holds item i of batch row bb), whose product against the
  transposed weight matrix is the sum over d of x d * w e d, plus the bias; and the closing product, sum and rectifier,
  which are elementwise. The narrowing format changes are the identity on the extended reals. Put together in the order
  of the text this is the specification's formula term by term, so no law of arithmetic is used beyond reading each sum
  over its own index.
-/
import proofs.«179504_j42984032698946_1_alg».proof.Proof.Gen.KernelIdeal.Skeleton
import proofs.«179504_j42984032698946_1_alg».proof.Proof.ItemAttention
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KernelValue

open Cert.KernelIdeal Cert.KernelIdeal.Gen Idealize.ShloMosaic Idealize.ShloMosaic.ValueIdx Cert.ItemAttention

/-- The flat scores as a [64,20,20] array. -/
private def sc3 (v34 v36 : FVec Ideal S25600 .f32) : FVec Ideal S64x20x20 .f32 :=
  shapeCast S64x20x20 (addf v34 v36) shapeCasts_S25600_S64x20x20

private theorem sc3_apply (v34 v36 : FVec Ideal S25600 .f32) (bb : Fin 64) (i j : Fin 20) :
    sc3 v34 v36 (ix3 bb i j) = v34 (ix1 (pairPos bb i j)) + v36 (ix1 (pairPos bb i j)) := by
  unfold sc3
  refine (shapeCast_apply _ _ (ix3 bb i j) (ix1 (pairPos bb i j)) ?_).trans ?_
  · rw [Shape.rowMajor_val_one, Shape.rowMajor_val_three]
    show bb.val * 400 + i.val * 20 + j.val = (bb.val * 20 + i.val) * 20 + j.val
    omega
  · rfl

/-- A [64,20] array repeated along a new last axis of extent 20. -/
private def rowBc (y : FVec Ideal S64x20 .f32) : FVec Ideal S64x20x20 .f32 :=
  broadcastTo S64x20x20 (shapeCast S64x20x1 y shapeCasts_S64x20_S64x20x1) broadcasts_S64x20x1_S64x20x20

private theorem rowBc_apply (y : FVec Ideal S64x20 .f32) (bb : Fin 64) (i j : Fin 20) :
    rowBc y (ix3 bb i j) = y (ix2 bb i) := by
  unfold rowBc
  refine (broadcastTo_apply _ _ (ix3 bb i j) (ix3 bb i (0 : Fin 1)) fun a => ?_).trans ?_
  · match a with
    | ⟨0, _⟩ => rfl
    | ⟨1, _⟩ => rfl
    | ⟨2, _⟩ => rfl
  · refine shapeCast_apply _ _ (ix3 bb i (0 : Fin 1)) (ix2 bb i) ?_
    rw [Shape.rowMajor_val_two, Shape.rowMajor_val_three]
    show bb.val * 20 + i.val = (bb.val * 20 + i.val) * 1 + 0
    omega

/-- The index a reduction over the last axis reads: the kept coordinates with the reduced one put back. -/
private theorem lift_row (bb : Fin 64) (i : Fin 20) (k : Fin (S64x20x20.size 2)) :
    reduces_S64x20x20_S64x20.lift (ix2 bb i) k = ix3 bb i (k : Fin 20) :=
  funext fun c => Fin.ext (by
    match c with
    | ⟨0, _⟩ => rfl
    | ⟨1, _⟩ => rfl
    | ⟨2, _⟩ => rfl)

/-- Each row's maximum, as the kernel takes it. -/
private def rowMax (x : FVec Ideal S64x20x20 .f32) : FVec Ideal S64x20 .f32 :=
  maximumf (broadcast S64x20 (Scalar.ofBits .f32 0xFF800000#32))
    (multiReduction .maximumf [2] S64x20 x 0xFF800000#32 reduces_S64x20x20_S64x20 (.inl rfl) rfl)

private theorem rowMax_apply (x : FVec Ideal S64x20x20 .f32) (bb : Fin 64) (i : Fin 20) :
    rowMax x (ix2 bb i) = rowTop (fun j => x (ix3 bb i j)) := by
  unfold rowMax rowTop
  rw [maximumf_apply, broadcast_apply]
  refine congrArg (max _) ?_
  refine (Ideal.multiReduction_maximumf_single x _ reduces_S64x20x20_S64x20 _ _ (ix2 bb i)).trans ?_
  refine congrArg (Finset.fold max _ · _) ?_
  funext k
  exact congrArg x (lift_row bb i k)

/-- Each row's sum. -/
private def rowSum (y : FVec Ideal S64x20x20 .f32) : FVec Ideal S64x20 .f32 :=
  multiReduction .add [2] S64x20 y 0x00000000#32 reduces_S64x20x20_S64x20 (.inl rfl) rfl

private theorem rowSum_apply (y : FVec Ideal S64x20x20 .f32) (bb : Fin 64) (i : Fin 20) :
    rowSum y (ix2 bb i) = ∑ k : Fin 20, y (ix3 bb i k) := by
  unfold rowSum
  refine (Ideal.multiReduction_add_single y _ reduces_S64x20x20_S64x20 _ _ (ix2 bb i)).trans ?_
  exact Finset.sum_congr rfl fun k _ => congrArg y (lift_row bb i k)

/-- The softmax over the last axis, as the kernel writes it. -/
private def wts (x : FVec Ideal S64x20x20 .f32) : FVec Ideal S64x20x20 .f32 :=
  divf (exp (subf x (rowBc (rowMax x)))) (rowBc (rowSum (exp (subf x (rowBc (rowMax x))))))

private theorem expSub_apply (x : FVec Ideal S64x20x20 .f32) (bb : Fin 64) (i j : Fin 20) :
    exp (subf x (rowBc (rowMax x))) (ix3 bb i j)
      = Ideal.exp (x (ix3 bb i j) - rowTop (fun j' => x (ix3 bb i j'))) := by
  show Ideal.exp (x (ix3 bb i j) - rowBc (rowMax x) (ix3 bb i j)) = _
  rw [rowBc_apply, rowMax_apply]

private theorem wts_apply (x : FVec Ideal S64x20x20 .f32) (bb : Fin 64) (i j : Fin 20) :
    wts x (ix3 bb i j) = softmaxRow (fun j' => x (ix3 bb i j')) j := by
  unfold wts softmaxRow
  rw [divf_apply, rowBc_apply, rowSum_apply, expSub_apply]
  refine congrArg (Ideal.div _) ?_
  exact Finset.sum_congr rfl fun k _ => expSub_apply x bb i k

/-! The batched product of the weights with the items. -/

private theorem lhsB_0 (i : S64x20x64.Idx) (q : dot_S64x20x20_S64x20x64_S64x20x64_2_1_1_2_0_0.contr.Idx) :
    (dot_S64x20x20_S64x20x64_S64x20x64_2_1_1_2_0_0.lhsIdx i q 0).val = (i 0).val := by
  unfold DotDims.lhsIdx
  rw [dif_pos (show (0 : Fin S64x20x20.rank) ∈ dot_S64x20x20_S64x20x64_S64x20x64_2_1_1_2_0_0.lhsBatch by decide)]
  rfl

private theorem lhsB_1 (i : S64x20x64.Idx) (q : dot_S64x20x20_S64x20x64_S64x20x64_2_1_1_2_0_0.contr.Idx) :
    (dot_S64x20x20_S64x20x64_S64x20x64_2_1_1_2_0_0.lhsIdx i q 1).val = (i 1).val := by
  unfold DotDims.lhsIdx
  rw [dif_neg (show ¬(1 : Fin S64x20x20.rank) ∈ dot_S64x20x20_S64x20x64_S64x20x64_2_1_1_2_0_0.lhsBatch by decide),
    dif_pos (show (1 : Fin S64x20x20.rank) ∈ dot_S64x20x20_S64x20x64_S64x20x64_2_1_1_2_0_0.lhsNonContracting by decide)]
  rfl

private theorem lhsB_2 (i : S64x20x64.Idx) (q : dot_S64x20x20_S64x20x64_S64x20x64_2_1_1_2_0_0.contr.Idx) :
    (dot_S64x20x20_S64x20x64_S64x20x64_2_1_1_2_0_0.lhsIdx i q 2).val = (q ⟨0, by decide⟩).val :=
  dot_S64x20x20_S64x20x64_S64x20x64_2_1_1_2_0_0.lhsIdx_val_of_single rfl i q

private theorem rhsB_0 (i : S64x20x64.Idx) (q : dot_S64x20x20_S64x20x64_S64x20x64_2_1_1_2_0_0.contr.Idx) :
    (dot_S64x20x20_S64x20x64_S64x20x64_2_1_1_2_0_0.rhsIdx i q 0).val = (i 0).val := by
  unfold DotDims.rhsIdx
  rw [dif_pos (show (0 : Fin S64x20x64.rank) ∈ dot_S64x20x20_S64x20x64_S64x20x64_2_1_1_2_0_0.rhsBatch by decide)]
  rfl

private theorem rhsB_1 (i : S64x20x64.Idx) (q : dot_S64x20x20_S64x20x64_S64x20x64_2_1_1_2_0_0.contr.Idx) :
    (dot_S64x20x20_S64x20x64_S64x20x64_2_1_1_2_0_0.rhsIdx i q 1).val = (q ⟨0, by decide⟩).val :=
  dot_S64x20x20_S64x20x64_S64x20x64_2_1_1_2_0_0.rhsIdx_val_of_single rfl i q

private theorem rhsB_2 (i : S64x20x64.Idx) (q : dot_S64x20x20_S64x20x64_S64x20x64_2_1_1_2_0_0.contr.Idx) :
    (dot_S64x20x20_S64x20x64_S64x20x64_2_1_1_2_0_0.rhsIdx i q 2).val = (i 2).val := by
  unfold DotDims.rhsIdx
  rw [dif_neg (show ¬(2 : Fin S64x20x64.rank) ∈ dot_S64x20x20_S64x20x64_S64x20x64_2_1_1_2_0_0.rhsBatch by decide),
    dif_pos (show (2 : Fin S64x20x64.rank) ∈ dot_S64x20x20_S64x20x64_S64x20x64_2_1_1_2_0_0.rhsNonContracting by decide)]
  rfl

/-- The items averaged with the weights: per batch row, the weights' matrix times the items' matrix. -/
private def att (w : FVec Ideal S64x20x20 .f32) (v1 : Vec Ideal S64x20x64 .f32) : FVec Ideal S64x20x64 .f32 :=
  matmul dot_S64x20x20_S64x20x64_S64x20x64_2_1_1_2_0_0 none (truncf .bf16 w bitsLt_bf16_f32) (k0_pay2 v1)
    (constant S64x20x64 .f32 0x00000000#32)

private theorem att_apply (w : FVec Ideal S64x20x20 .f32) (v1 : Vec Ideal S64x20x64 .f32) (bb : Fin 64) (i : Fin 20) (d : Fin 64) :
    att w v1 (ix3 bb i d) = ∑ j : Fin 20, w (ix3 bb i j) * v1 (ix3 bb j d) := by
  unfold att
  simp only [matmul]
  rw [Ideal.matmul_constant_zero_apply,
    ← Equiv.sum_comp (ValueIdx.contrEquiv1 dot_S64x20x20_S64x20x64_S64x20x64_2_1_1_2_0_0 20 rfl rfl).symm]
  refine Finset.sum_congr rfl fun k _ => ?_
  have hk := ValueIdx.contrEquiv1_symm_val dot_S64x20x20_S64x20x64_S64x20x64_2_1_1_2_0_0 20 rfl rfl k
  have el : dot_S64x20x20_S64x20x64_S64x20x64_2_1_1_2_0_0.lhsIdx (ix3 bb i d)
      ((ValueIdx.contrEquiv1 dot_S64x20x20_S64x20x64_S64x20x64_2_1_1_2_0_0 20 rfl rfl).symm k) = ix3 bb i k :=
    funext fun a => Fin.ext (by
      match a with
      | ⟨0, _⟩ => exact lhsB_0 _ _
      | ⟨1, _⟩ => exact lhsB_1 _ _
      | ⟨2, _⟩ => exact (lhsB_2 _ _).trans hk)
  have er : dot_S64x20x20_S64x20x64_S64x20x64_2_1_1_2_0_0.rhsIdx (ix3 bb i d)
      ((ValueIdx.contrEquiv1 dot_S64x20x20_S64x20x64_S64x20x64_2_1_1_2_0_0 20 rfl rfl).symm k) = ix3 bb k d :=
    funext fun a => Fin.ext (by
      match a with
      | ⟨0, _⟩ => exact rhsB_0 _ _
      | ⟨1, _⟩ => exact (rhsB_1 _ _).trans hk
      | ⟨2, _⟩ => exact rhsB_2 _ _)
  rw [el, er]
  rfl

/-! A dense layer on the rows of a [1280,64] array. -/

private theorem lhsP_0 (i : S1280x64.Idx) (q : dot_S1280x64_S64x64_S1280x64_1_0_0_1_n_n.contr.Idx) :
    (dot_S1280x64_S64x64_S1280x64_1_0_0_1_n_n.lhsIdx i q 0).val = (i 0).val := by
  unfold DotDims.lhsIdx
  rw [dif_neg (show ¬(0 : Fin S1280x64.rank) ∈ dot_S1280x64_S64x64_S1280x64_1_0_0_1_n_n.lhsBatch by decide),
    dif_pos (show (0 : Fin S1280x64.rank) ∈ dot_S1280x64_S64x64_S1280x64_1_0_0_1_n_n.lhsNonContracting by decide)]
  rfl

private theorem lhsP_1 (i : S1280x64.Idx) (q : dot_S1280x64_S64x64_S1280x64_1_0_0_1_n_n.contr.Idx) :
    (dot_S1280x64_S64x64_S1280x64_1_0_0_1_n_n.lhsIdx i q 1).val = (q ⟨0, by decide⟩).val :=
  dot_S1280x64_S64x64_S1280x64_1_0_0_1_n_n.lhsIdx_val_of_single rfl i q

private theorem rhsP_0 (i : S1280x64.Idx) (q : dot_S1280x64_S64x64_S1280x64_1_0_0_1_n_n.contr.Idx) :
    (dot_S1280x64_S64x64_S1280x64_1_0_0_1_n_n.rhsIdx i q 0).val = (q ⟨0, by decide⟩).val :=
  dot_S1280x64_S64x64_S1280x64_1_0_0_1_n_n.rhsIdx_val_of_single rfl i q

private theorem rhsP_1 (i : S1280x64.Idx) (q : dot_S1280x64_S64x64_S1280x64_1_0_0_1_n_n.contr.Idx) :
    (dot_S1280x64_S64x64_S1280x64_1_0_0_1_n_n.rhsIdx i q 1).val = (i 1).val := by
  unfold DotDims.rhsIdx
  rw [dif_neg (show ¬(1 : Fin S64x64.rank) ∈ dot_S1280x64_S64x64_S1280x64_1_0_0_1_n_n.rhsBatch by decide),
    dif_pos (show (1 : Fin S64x64.rank) ∈ dot_S1280x64_S64x64_S1280x64_1_0_0_1_n_n.rhsNonContracting by decide)]
  rfl

/-- Rows times the transposed weight matrix, plus the bias row. -/
private def denseFlat (x : FVec Ideal S1280x64 .f32) (w : Vec Ideal S64x64 .f32) (b : Vec Ideal S64 .f32) :
    FVec Ideal S1280x64 .f32 :=
  addf
    (matmul dot_S1280x64_S64x64_S1280x64_1_0_0_1_n_n none (truncf .bf16 x bitsLt_bf16_f32)
      (transpose S64x64 [1, 0] (truncf .bf16 w bitsLt_bf16_f32) transposes_S64x64_p1_0_S64x64)
      (constant S1280x64 .f32 0x00000000#32))
    (broadcastTo S1280x64 (shapeCast S1x64 b shapeCasts_S64_S1x64) broadcasts_S1x64_S1280x64)

private theorem denseFlat_apply (x : FVec Ideal S1280x64 .f32) (w : Vec Ideal S64x64 .f32) (b : Vec Ideal S64 .f32)
    (r : Fin 1280) (e : Fin 64) :
    denseFlat x w b (ix2 r e) = (∑ d : Fin 64, x (ix2 r d) * w (ix2 e d)) + b (ix1 e) := by
  unfold denseFlat
  rw [addf_apply]
  refine congrArg₂ (· + ·) ?_ ?_
  · simp only [matmul]
    rw [Ideal.matmul_constant_zero_apply,
      ← Equiv.sum_comp (ValueIdx.contrEquiv1 dot_S1280x64_S64x64_S1280x64_1_0_0_1_n_n 64 rfl rfl).symm]
    refine Finset.sum_congr rfl fun k _ => ?_
    have hk := ValueIdx.contrEquiv1_symm_val dot_S1280x64_S64x64_S1280x64_1_0_0_1_n_n 64 rfl rfl k
    have el : dot_S1280x64_S64x64_S1280x64_1_0_0_1_n_n.lhsIdx (ix2 r e)
        ((ValueIdx.contrEquiv1 dot_S1280x64_S64x64_S1280x64_1_0_0_1_n_n 64 rfl rfl).symm k) = ix2 r k :=
      funext fun a => Fin.ext (by
        match a with
        | ⟨0, _⟩ => exact lhsP_0 _ _
        | ⟨1, _⟩ => exact (lhsP_1 _ _).trans hk)
    have er : dot_S1280x64_S64x64_S1280x64_1_0_0_1_n_n.rhsIdx (ix2 r e)
        ((ValueIdx.contrEquiv1 dot_S1280x64_S64x64_S1280x64_1_0_0_1_n_n 64 rfl rfl).symm k) = ix2 k e :=
      funext fun a => Fin.ext (by
        match a with
        | ⟨0, _⟩ => exact (rhsP_0 _ _).trans hk
        | ⟨1, _⟩ => exact rhsP_1 _ _)
    rw [el, er]
    refine congrArg (x (ix2 r k) * ·) ?_
    exact transpose_ix2_apply (truncf (F := Ideal) .bf16 w bitsLt_bf16_f32) transposes_S64x64_p1_0_S64x64 k e
  · refine (broadcastTo_1b_ab_apply _ broadcasts_S1x64_S1280x64 r e).trans ?_
    exact shapeCast_a_1a_apply b shapeCasts_S64_S1x64 (0 : Fin 1) e

/-- The same dense layer on a [64,20,64] array, through its [1280,64] view. -/
private def denseK (x : FVec Ideal S64x20x64 .f32) (w : Vec Ideal S64x64 .f32) (b : Vec Ideal S64 .f32) :
    FVec Ideal S64x20x64 .f32 :=
  shapeCast S64x20x64 (denseFlat (shapeCast S1280x64 x shapeCasts_S64x20x64_S1280x64) w b) shapeCasts_S1280x64_S64x20x64

/-- The row of the [1280,64] view that holds item i of batch row bb. -/
private abbrev rowOf (bb : Fin 64) (i : Fin 20) : Fin 1280 :=
  ⟨bb.val * 20 + i.val, by have := bb.isLt; have := i.isLt; omega⟩

private theorem flat_apply (x : FVec Ideal S64x20x64 .f32) (bb : Fin 64) (i : Fin 20) (d : Fin 64) :
    shapeCast S1280x64 x shapeCasts_S64x20x64_S1280x64 (ix2 (rowOf bb i) d) = x (ix3 bb i d) :=
  shapeCast_apply _ _ (ix2 (rowOf bb i) d) (ix3 bb i d) (by
    rw [Shape.rowMajor_val_three, Shape.rowMajor_val_two]
    rfl)

private theorem unflat_apply (y : FVec Ideal S1280x64 .f32) (bb : Fin 64) (i : Fin 20) (e : Fin 64) :
    shapeCast S64x20x64 y shapeCasts_S1280x64_S64x20x64 (ix3 bb i e) = y (ix2 (rowOf bb i) e) :=
  shapeCast_apply _ _ (ix3 bb i e) (ix2 (rowOf bb i) e) (by
    rw [Shape.rowMajor_val_three, Shape.rowMajor_val_two]
    rfl)

private theorem denseK_apply (x : FVec Ideal S64x20x64 .f32) (w : Vec Ideal S64x64 .f32) (b : Vec Ideal S64 .f32)
    (bb : Fin 64) (i : Fin 20) (e : Fin 64) :
    denseK x w b (ix3 bb i e) = (∑ d : Fin 64, x (ix3 bb i d) * w (ix2 e d)) + b (ix1 e) := by
  unfold denseK
  rw [unflat_apply, denseFlat_apply]
  refine congrArg (· + b (ix1 e)) ?_
  exact Finset.sum_congr rfl fun d _ => congrArg (· * w (ix2 e d)) (flat_apply x bb i d)

/-! The closing steps: the user-item product, the sum and the leaky rectifier. -/

/-- The leaky rectifier on every element, as the kernel writes it. -/
private def lreluV (x : FVec Ideal S64x20x64 .f32) : FVec Ideal S64x20x64 .f32 :=
  select (cmpf .oge x (broadcast S64x20x64 (Scalar.ofBits .f32 0x00000000#32))) x
    (mulf (broadcast S64x20x64 (Scalar.ofBits .f32 0x3C23D70A#32)) x)

private theorem lreluV_apply (x : FVec Ideal S64x20x64 .f32) (j : S64x20x64.Idx) : lreluV x j = lrelu (x j) := rfl

/-- The user's vector repeated over the twenty items. -/
private theorem userBc_apply (v0 : Vec Ideal S64x1x64 .f32) (bb : Fin 64) (i : Fin 20) (e : Fin 64) :
    broadcastTo S64x20x64 v0 broadcasts_S64x1x64_S64x20x64 (ix3 bb i e) = v0 (ix3 bb (0 : Fin 1) e) :=
  broadcastTo_apply _ _ (ix3 bb i e) (ix3 bb (0 : Fin 1) e) fun a =>
    match a with
    | ⟨0, _⟩ => rfl
    | ⟨1, _⟩ => rfl
    | ⟨2, _⟩ => rfl

theorem payload_apply (v0 : Vec Ideal S64x1x64 .f32) (v1 : Vec Ideal S64x20x64 .f32) (v6 : Vec Ideal S64x64 .f32)
    (v7 : Vec Ideal S64 .f32) (v8 : Vec Ideal S64x64 .f32) (v9 : Vec Ideal S64 .f32) (v34 v36 : FVec Ideal S25600 .f32)
    (bb : Fin 64) (i : Fin 20) (e : Fin 64) :
    k0_pay1 (F := Ideal) v0 v1 v7 v9 (k0_pay2 v1) (k0_pay3 v6) (k0_pay4 v8) v34 v36 (ix3 bb i e)
      = outFrom (fun d => v0 (ix3 bb (0 : Fin 1) d)) (fun i' d => v1 (ix3 bb i' d))
          (fun i' => softmaxRow (fun j' => v34 (ix1 (pairPos bb i' j')) + v36 (ix1 (pairPos bb i' j'))))
          (mat v6) (vec v7) (mat v8) (vec v9) i e := by
  -- the payload is the chain of the stages read above
  have h : k0_pay1 (F := Ideal) v0 v1 v7 v9 (k0_pay2 v1) (k0_pay3 v6) (k0_pay4 v8) v34 v36
      = lreluV (addf (mulf (broadcastTo S64x20x64 v0 broadcasts_S64x1x64_S64x20x64) v1)
          (denseK (addf (denseK (att (wts (sc3 v34 v36)) v1) v6 v7) v1) v8 v9)) := rfl
  rw [h, lreluV_apply, addf_apply, mulf_apply, userBc_apply, denseK_apply]
  unfold outFrom dense attended mat vec
  refine congrArg lrelu (congrArg (_ + ·) (congrArg (· + _) ?_))
  -- the second dense layer's input: the first dense layer of the average, plus the item
  refine Finset.sum_congr rfl fun d _ => congrArg (· * _) ?_
  rw [addf_apply, denseK_apply]
  refine congrArg (· + _) (congrArg (· + _) ?_)
  -- the first dense layer's input: the items averaged with the softmax weights
  refine Finset.sum_congr rfl fun d' _ => congrArg (· * _) ?_
  rw [att_apply]
  refine Finset.sum_congr rfl fun j _ => congrArg (· * _) ?_
  rw [wts_apply]
  exact congrArg (softmaxRow · j) (funext fun j' => sc3_apply v34 v36 bb i j')

end Cert.KernelIdeal.KernelValue

end
-- ==== Proof.KernelBlock.lean ====
/-
  What the kernel body leaves in its output block, read at an index at the ideal values: the entry (bb, i, e) is the
  output of the block's batch row bb at (i, e) — the block of embeddings taken as an array of 64 batch rows. The body
  stores one value through the whole output block; it loads the user slot (slot 0) and the item slots (slots 1 to 20) of
  the embeddings block through two rectangles, and the weights whole. The stored value at (bb, i, e) is the output from
  the softmax of row bb's pair scores, and the flat array of pair scores holds the score of the pair (i, j) of row bb at
  the pair's row-major position.
-/
import proofs.«179504_j42984032698946_1_alg».proof.Proof.Gen.KernelIdeal.Frame
import proofs.«179504_j42984032698946_1_alg».proof.Proof.KernelScoresRead
import proofs.«179504_j42984032698946_1_alg».proof.Proof.KernelOutRead
import proofs.«179504_j42984032698946_1_alg».proof.Proof.ItemAttention
import Idealize.ShloMosaic.Lib.ValueIdx
import Idealize.ShloMosaic.Lib.Pipeline.Value

noncomputable section

namespace Cert.KernelIdeal.KernelValue

open Cert.KernelIdeal Cert.KernelIdeal.Gen Idealize.ShloMosaic Idealize.ShloMosaic.ValueIdx Cert.ItemAttention

/-- The load of the user slot of an embeddings block reads slot 0 of each batch row. -/
theorem ld_user (x0 : Vec Ideal S64x21x64 .f32) (bb : Fin 64) (d : Fin 64) :
    View.ld x0 r0_0 (ix3 bb (0 : Fin 1) d) = x0 (ix3 bb (0 : Fin 21) d) := by
  show x0 (r0_0.idx (ix3 bb (0 : Fin 1) d)) = x0 (ix3 bb (0 : Fin 21) d)
  refine congrArg x0 (funext fun a => Fin.ext ?_)
  match a with
  | ⟨0, _⟩ => show 0 + 1 * bb.val = bb.val; omega
  | ⟨1, _⟩ => show 0 + 1 * 0 = 0; omega
  | ⟨2, _⟩ => show 0 + 1 * d.val = d.val; omega

/-- The load of the item slots of an embeddings block reads slot i + 1 of each batch row for item i. -/
theorem ld_items (x0 : Vec Ideal S64x21x64 .f32) (bb : Fin 64) (i : Fin 20) (d : Fin 64) :
    View.ld x0 r0_1 (ix3 bb i d) = x0 (ix3 bb i.succ d) := by
  show x0 (r0_1.idx (ix3 bb i d)) = x0 (ix3 bb i.succ d)
  refine congrArg x0 (funext fun a => Fin.ext ?_)
  match a with
  | ⟨0, _⟩ => show 0 + 1 * bb.val = bb.val; omega
  | ⟨1, _⟩ => show 1 + 1 * i.val = i.val + 1; omega
  | ⟨2, _⟩ => show 0 + 1 * d.val = d.val; omega

/-- The offsets of a load or store through a whole buffer are all zero. -/
theorem zero3 : (![0, 0, 0] : Fin 3 → Nat) = fun _ => 0 := by
  funext a; match a with | ⟨0, _⟩ => rfl | ⟨1, _⟩ => rfl | ⟨2, _⟩ => rfl
theorem zero2 : (![0, 0] : Fin 2 → Nat) = fun _ => 0 := by
  funext a; match a with | ⟨0, _⟩ => rfl | ⟨1, _⟩ => rfl
theorem zero1 : (![0] : Fin 1 → Nat) = fun _ => 0 := by
  funext a; match a with | ⟨0, _⟩ => rfl

theorem out0_9_apply (x0 : Vec Ideal S64x21x64 .f32) (x1 : Vec Ideal S64x64 .f32) (x2 : Vec Ideal S64 .f32)
    (x3 : Vec Ideal S1x64 .f32) (x4 : Vec Ideal S1 .f32) (x5 : Vec Ideal S64x64 .f32) (x6 : Vec Ideal S64 .f32)
    (x7 : Vec Ideal S64x64 .f32) (x8 : Vec Ideal S64 .f32) (bb : Fin 64) (i : Fin 20) (e : Fin 64) :
    out0_9 (F := Ideal) x0 x1 x2 x3 x4 x5 x6 x7 x8 (ix3 bb i e) = resultAt x0 x1 x2 x3 x4 x5 x6 x7 x8 bb i e := by
  unfold out0_9
  rw [View.canon_unit_zero zero3]
  rw [View.ld_unit_zero (S := S64x64) zero2, View.ld_unit_zero (S := S64x64) zero2, View.ld_unit_zero (S := S64x64) zero2,
    View.ld_unit_zero (S := S64) zero1, View.ld_unit_zero (S := S64) zero1, View.ld_unit_zero (S := S64) zero1,
    View.ld_unit_zero (S := S1x64) zero2, View.ld_unit_zero (S := S1) zero1]
  rw [payload_apply, resultAt_eq]
  unfold outFromAt
  have hu : (fun d => View.ld x0 r0_0 (ix3 bb (0 : Fin 1) d)) = userRow x0 bb := funext fun d => ld_user x0 bb d
  have hi : (fun i' d => View.ld x0 r0_1 (ix3 bb i' d)) = itemRows x0 bb :=
    funext fun i' => funext fun d => ld_items x0 bb i' d
  have hs : (fun i' => softmaxRow (fun j' => k0_pay5 (F := Ideal) (View.ld x0 r0_1) x1 x2 x3 (ix1 (pairPos bb i' j'))
        + k0_pay6 (F := Ideal) x4 (ix1 (pairPos bb i' j'))))
      = fun i' => softmaxRow (scoreAt x0 x1 x2 x3 x4 bb i') := by
    funext i'
    refine congrArg softmaxRow (funext fun j' => ?_)
    rw [pairScore_apply, hi]
    rfl
  rw [hu, hi, hs]

end Cert.KernelIdeal.KernelValue

end
-- ==== Proof.KernelArray.lean ====
/-
  From blocks to the array: the kernel's grid has 64 points, point t staging batch rows 64 t to 64 t + 63 of the embeddings (the weights whole) and writing back the same rows of the result; the 64 blocks tile the result array, so after the run the result array is the specification's result of the argument arrays.
-/
import proofs.«179504_j42984032698946_1_alg».proof.Proof.Gen.KernelIdeal.Value
import proofs.«179504_j42984032698946_1_alg».proof.Proof.KernelBlock
import proofs.«179504_j42984032698946_1_alg».proof.Proof.ItemAttention
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KernelValue

open Cert.KernelIdeal Cert.KernelIdeal.Gen Idealize.ShloMosaic Idealize.ShloMosaic.ValueIdx Cert.ItemAttention

open Idealize.ShloMosaic.TcCoe Idealize.SL.Sem
open Idealize.ShloMosaic.Pipeline (Dat)

variable (m : (ℓ : Loc nD τ sig) → Buf (Elt Ideal) ℓ) (ρ : Dev nD → PrngReg)

/-! ## The index maps over the grid -/

/-- At grid point t the embeddings' window and the result's window both sit at block (t, 0, 0): decided over the 64
    points. -/
theorem batch_index : ∀ t : Fin cfg0.N,
    win0_0.index t (0 : Fin 3) = t.val ∧ win0_0.index t (1 : Fin 3) = 0 ∧ win0_0.index t (2 : Fin 3) = 0
    ∧ win0_9.index t (0 : Fin 3) = t.val ∧ win0_9.index t (1 : Fin 3) = 0 ∧ win0_9.index t (2 : Fin 3) = 0 :=
  (by decide +kernel : ∀ t : Fin grid0.N, _)

/-- At every grid point each of the eight weight windows sits at block zero. -/
theorem weight_index : ∀ t : Fin cfg0.N,
    win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-! ## What each window's block holds -/

/-- The embeddings' block at grid point t is batch rows 64 t to 64 t + 63 of the embeddings: row bb of the block is row
    r = 64 t + bb of the array. -/
theorem embeddings_block (c : Dev nD) (t : Fin cfg0.N) (bb : Fin 64) (n : Fin 21) (d : Fin 64) (r : Fin 4096)
    (hr : r.val = 64 * t.val + bb.val) :
    (iblk m c 0 t : Vec Ideal S64x21x64 .f32) (ix3 bb n d)
      = (m ((c : Thread nD τ).loc main_arg0) : S4096x21x64.Idx → EReal) (ix3 r n d) := by
  obtain ⟨e0, e1, e2, -, -, -⟩ := batch_index t
  unfold iblk
  show V m c main_arg0 (((cfg0.win 0).blk t).view.emb (ix3 bb n d)) = V m c main_arg0 (ix3 r n d)
  refine congrArg (V m c main_arg0) (funext fun a => Fin.ext ?_)
  match a with
  | ⟨0, _⟩ => show win0_0.index t (0 : Fin 3) * 64 + 1 * bb.val = r.val; omega
  | ⟨1, _⟩ => show win0_0.index t (1 : Fin 3) * 21 + 1 * n.val = n.val; omega
  | ⟨2, _⟩ => show win0_0.index t (2 : Fin 3) * 64 + 1 * d.val = d.val; omega

/-- The first weight matrix's block is the whole matrix at every grid point. -/
theorem weights1_block (c : Dev nD) (t : Fin cfg0.N) :
    (iblk m c 1 t : Vec Ideal S64x64 .f32) = m ((c : Thread nD τ).loc main_arg1) := by
  obtain ⟨e0, e1, -⟩ := weight_index t
  funext y
  unfold iblk
  show V m c main_arg1 (((cfg0.win 1).blk t).view.emb y) = V m c main_arg1 y
  refine congrArg (V m c main_arg1) (funext fun a => Fin.ext ?_)
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- The first bias vector's block is the whole vector at every grid point. -/
theorem bias1_block (c : Dev nD) (t : Fin cfg0.N) :
    (iblk m c 2 t : Vec Ideal S64 .f32) = m ((c : Thread nD τ).loc main_arg2) := by
  obtain ⟨-, -, e0, -⟩ := weight_index t
  funext y
  unfold iblk
  show V m c main_arg2 (((cfg0.win 2).blk t).view.emb y) = V m c main_arg2 y
  refine congrArg (V m c main_arg2) (funext fun a => Fin.ext ?_)
  match a with
  | ⟨0, _⟩ => show win0_2.index t (0 : Fin 1) * 64 + 1 * (y 0).val = (y 0).val; omega

/-- The score row's block is the whole row at every grid point. -/
theorem scoreRow_block (c : Dev nD) (t : Fin cfg0.N) :
    (iblk m c 3 t : Vec Ideal S1x64 .f32) = m ((c : Thread nD τ).loc main_arg3) := by
  obtain ⟨-, -, -, e0, e1, -⟩ := weight_index t
  funext y
  unfold iblk
  show V m c main_arg3 (((cfg0.win 3).blk t).view.emb y) = V m c main_arg3 y
  refine congrArg (V m c main_arg3) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The score bias's block is its one element at every grid point. -/
theorem scoreBias_block (c : Dev nD) (t : Fin cfg0.N) :
    (iblk m c 4 t : Vec Ideal S1 .f32) = m ((c : Thread nD τ).loc main_arg4) := by
  obtain ⟨-, -, -, -, -, e0, -⟩ := weight_index t
  funext y
  unfold iblk
  show V m c main_arg4 (((cfg0.win 4).blk t).view.emb y) = V m c main_arg4 y
  refine congrArg (V m c main_arg4) (funext fun a => Fin.ext ?_)
  match a with
  | ⟨0, _⟩ => show win0_4.index t (0 : Fin 1) * 1 + 1 * (y 0).val = (y 0).val; omega

/-- The second weight matrix's block is the whole matrix at every grid point. -/
theorem weights2_block (c : Dev nD) (t : Fin cfg0.N) :
    (iblk m c 5 t : Vec Ideal S64x64 .f32) = m ((c : Thread nD τ).loc main_arg5) := by
  obtain ⟨-, -, -, -, -, -, e0, e1, -⟩ := weight_index t
  funext y
  unfold iblk
  show V m c main_arg5 (((cfg0.win 5).blk t).view.emb y) = V m c main_arg5 y
  refine congrArg (V m c main_arg5) (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

/-- The second bias vector's block is the whole vector at every grid point. -/
theorem bias2_block (c : Dev nD) (t : Fin cfg0.N) :
    (iblk m c 6 t : Vec Ideal S64 .f32) = m ((c : Thread nD τ).loc main_arg6) := by
  obtain ⟨-, -, -, -, -, -, -, -, e0, -⟩ := weight_index t
  funext y
  unfold iblk
  show V m c main_arg6 (((cfg0.win 6).blk t).view.emb y) = V m c main_arg6 y
  refine congrArg (V m c main_arg6) (funext fun a => Fin.ext ?_)
  match a with
  | ⟨0, _⟩ => show win0_6.index t (0 : Fin 1) * 64 + 1 * (y 0).val = (y 0).val; omega

/-- The third weight matrix's block is the whole matrix at every grid point. -/
theorem weights3_block (c : Dev nD) (t : Fin cfg0.N) :
    (iblk m c 7 t : Vec Ideal S64x64 .f32) = m ((c : Thread nD τ).loc main_arg7) := by
  obtain ⟨-, -, -, -, -, -, -, -, -, e0, e1, -⟩ := weight_index t
  funext y
  unfold iblk
  show V m c main_arg7 (((cfg0.win 7).blk t).view.emb y) = V m c main_arg7 y
  refine congrArg (V m c main_arg7) (funext fun a => Fin.ext ?_)
  match a with
  | ⟨0, _⟩ => show win0_7.index t (0 : Fin 2) * 64 + 1 * (y 0).val = (y 0).val; omega
  | ⟨1, _⟩ => show win0_7.index t (1 : Fin 2) * 64 + 1 * (y 1).val = (y 1).val; omega

/-- The third bias vector's block is the whole vector at every grid point. -/
theorem bias3_block (c : Dev nD) (t : Fin cfg0.N) :
    (iblk m c 8 t : Vec Ideal S64 .f32) = m ((c : Thread nD τ).loc main_arg8) := by
  obtain ⟨-, -, -, -, -, -, -, -, -, -, -, e0⟩ := weight_index t
  funext y
  unfold iblk
  show V m c main_arg8 (((cfg0.win 8).blk t).view.emb y) = V m c main_arg8 y
  refine congrArg (V m c main_arg8) (funext fun a => Fin.ext ?_)
  match a with
  | ⟨0, _⟩ => show win0_8.index t (0 : Fin 1) * 64 + 1 * (y 0).val = (y 0).val; omega

/-! ## One grid point's write-back -/

/-- What the body leaves at an index y of its output block, when the weight blocks are the weight arrays and the
    block of embeddings holds, in its row y 0, row k 0 of the embeddings array: the specification's result at the index k
    that has y's other two coordinates. The result at a batch row depends on that row of the embeddings alone. -/
theorem body_at (x0 : Vec Ideal S64x21x64 .f32) (x1 : Vec Ideal S64x64 .f32) (x2 : Vec Ideal S64 .f32)
    (x3 : Vec Ideal S1x64 .f32) (x4 : Vec Ideal S1 .f32) (x5 : Vec Ideal S64x64 .f32) (x6 : Vec Ideal S64 .f32)
    (x7 : Vec Ideal S64x64 .f32) (x8 : Vec Ideal S64 .f32)
    (a0 : S4096x21x64.Idx → EReal) (a1 : S64x64.Idx → EReal) (a2 : S64.Idx → EReal) (a3 : S1x64.Idx → EReal)
    (a4 : S1.Idx → EReal) (a5 : S64x64.Idx → EReal) (a6 : S64.Idx → EReal) (a7 : S64x64.Idx → EReal)
    (a8 : S64.Idx → EReal)
    (h1 : x1 = a1) (h2 : x2 = a2) (h3 : x3 = a3) (h4 : x4 = a4) (h5 : x5 = a5) (h6 : x6 = a6) (h7 : x7 = a7)
    (h8 : x8 = a8) (y : S64x20x64.Idx) (k : S4096x20x64.Idx) (hk1 : (k 1).val = (y 1).val) (hk2 : (k 2).val = (y 2).val)
    (h0 : ∀ (n : Fin 21) (d : Fin 64), x0 (ix3 (y 0) n d) = a0 (ix3 (k 0) n d)) :
    out0_9 (F := Ideal) x0 x1 x2 x3 x4 x5 x6 x7 x8 y = result a0 a1 a2 a3 a4 a5 a6 a7 a8 k := by
  subst h1 h2 h3 h4 h5 h6 h7 h8
  have hk : k = ix3 (k 0) (y 1) (y 2) :=
    funext fun a => match a with | ⟨0, _⟩ => rfl | ⟨1, _⟩ => Fin.ext hk1 | ⟨2, _⟩ => Fin.ext hk2
  refine (congrArg (out0_9 (F := Ideal) x0 x1 x2 x3 x4 x5 x6 x7 x8) (eq_ix3 y)).trans ?_
  refine (out0_9_apply x0 x1 x2 x3 x4 x5 x6 x7 x8 (y 0) (y 1) (y 2)).trans ?_
  refine (resultAt_of_rows x0 a0 x1 x2 x3 x4 x5 x6 x7 x8 (y 0) (k 0) h0 (y 1) (y 2)).trans ?_
  refine (result_apply a0 x1 x2 x3 x4 x5 x6 x7 x8 (k 0) (y 1) (y 2)).symm.trans ?_
  exact congrArg (result a0 x1 x2 x3 x4 x5 x6 x7 x8) hk.symm

/-- What grid point t writes back is its block of the specification's result of the argument arrays: rows 64 t to
    64 t + 63. -/
theorem flushed_eq (c : Dev nD) (t : Fin cfg0.N) :
    (dats m 0 c).flushed 9 t
      = ((cfg0.win 9).blk t).view.read (Elt Ideal)
          (result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))) := by
  rw [Value.flushed9]
  obtain ⟨-, -, -, e0, e1, e2⟩ := batch_index t
  funext y
  have hrow : ((((cfg0.win 9).blk t).view.emb y : S4096x20x64.Idx) 0).val
      = 64 * t.val + (((cfg0.win 9).xinj (grid0.coords t) y : S64x20x64.Idx) 0).val := by
    show win0_9.index t (0 : Fin 3) * 64 + 1 * (y 0).val = 64 * t.val + (y 0).val; omega
  exact body_at (iblk m c 0 t) (iblk m c 1 t) (iblk m c 2 t) (iblk m c 3 t) (iblk m c 4 t) (iblk m c 5 t) (iblk m c 6 t)
    (iblk m c 7 t) (iblk m c 8 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (weights1_block m c t) (bias1_block m c t) (scoreRow_block m c t) (scoreBias_block m c t) (weights2_block m c t)
    (bias2_block m c t) (weights3_block m c t) (bias3_block m c t)
    ((cfg0.win 9).xinj (grid0.coords t) y) (((cfg0.win 9).blk t).view.emb y)
    (by show win0_9.index t (1 : Fin 3) * 20 + 1 * (y 1).val = (y 1).val; omega)
    (by show win0_9.index t (2 : Fin 3) * 64 + 1 * (y 2).val = (y 2).val; omega)
    (fun n d => embeddings_block m c t _ n d _ hrow)

/-! ## The 64 blocks tile the result array -/

/-- An index of the result array is in grid point t's block iff each coordinate is in the block's range on its axis. -/
theorem mem_block (t : Fin cfg0.N) (i : S4096x20x64.Idx) :
    i ∈ ((cfg0.win 9).blk t).view.set ↔ ∀ a : Fin 3, win0_9.index t a * S64x20x64.size a ≤ (i a).val
      ∧ (i a).val < win0_9.index t a * S64x20x64.size a + S64x20x64.size a := by
  show i ∈ ((View.whole main_v0).slice (win0_9.rect t)).set ↔ _
  rw [View.set_slice_whole, Rect.mem_set_unit]
  exact Iff.rfl

/-- Every index of the result array is in some grid point's block: batch row r is in the block of point r / 64. -/
theorem blocks_cover (i : S4096x20x64.Idx) :
    ∃ t : Fin cfg0.N, (cfg0.win 9).flush t = true ∧ i ∈ ((cfg0.win 9).blk t).view.set := by
  have h0 : (i 0).val < 4096 := (i 0).isLt
  have h1 : (i 1).val < 20 := (i 1).isLt
  have h2 : (i 2).val < 64 := (i 2).isLt
  have hN : cfg0.N = 64 := by decide
  have ht : (i 0).val / 64 < cfg0.N := by rw [hN]; omega
  obtain ⟨-, -, -, e0, e1, e2⟩ := batch_index ⟨(i 0).val / 64, ht⟩
  have e0' : win0_9.index ⟨(i 0).val / 64, ht⟩ (0 : Fin 3) = (i 0).val / 64 := e0
  refine ⟨⟨(i 0).val / 64, ht⟩, flush0_9 _, ?_⟩
  rw [mem_block]
  intro a
  match a with
  | ⟨0, _⟩ =>
    show win0_9.index ⟨(i 0).val / 64, ht⟩ (0 : Fin 3) * 64 ≤ (i 0).val
      ∧ (i 0).val < win0_9.index ⟨(i 0).val / 64, ht⟩ (0 : Fin 3) * 64 + 64
    omega
  | ⟨1, _⟩ =>
    show win0_9.index ⟨(i 0).val / 64, ht⟩ (1 : Fin 3) * 20 ≤ (i 1).val
      ∧ (i 1).val < win0_9.index ⟨(i 0).val / 64, ht⟩ (1 : Fin 3) * 20 + 20
    omega
  | ⟨2, _⟩ =>
    show win0_9.index ⟨(i 0).val / 64, ht⟩ (2 : Fin 3) * 64 ≤ (i 2).val
      ∧ (i 2).val < win0_9.index ⟨(i 0).val / 64, ht⟩ (2 : Fin 3) * 64 + 64
    omega

/-! ## The result array after the run -/

/-- After the run the result array is the specification's result of the argument arrays as launched. -/
theorem final9 (c : Dev nD) :
    (dats m 0 c).arrAt 9 cfg0.N
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) :=
  (dats m 0 c).arrAt_eq_of_cover 9
    (result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)))
    (fun t _ => flushed_eq m c t) blocks_cover

/-- The kernel's run at the ideal values: it terminates with the result array at the specification's result of the
    arguments, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2⟩) (Cert.KernelIdeal.Value.run_blocks m ρ)

end Cert.KernelIdeal.KernelValue

end
-- ==== Proof.RefTerm.lean ====
/-
  The reference program's value, as one term of its nine argument arrays, in three stages that follow its text line
  by line: the pair scores (the two slices of the embeddings, the pairwise sums of items, the dense layer with its leaky
  rectifier, the inner product with the weight row, the bias); the softmax over the neighbour axis (the maximum from
  minus infinity, the shift, the exponential, the sum, the quotient); and the output from the weights (the weighted
  average of the items, the two dense layers with the item added back between them, the user-item product, the leaky
  rectifier). Stated for any float values: the reference's run ends with its result at this term, and at the ideal
  values the term is read index by index.
-/
import proofs.«179504_j42984032698946_1_alg».proof.Proof.Gen.ReferenceIdeal

noncomputable section

namespace Cert.ReferenceIdeal.RefValue

open Cert.ReferenceIdeal Cert.ReferenceIdeal.Gen Idealize.ShloMosaic

variable {F : FTy → Type} [FloatOps F]

/-- The item slots of every batch row: slots 1 to 20 of the embeddings. -/
def refItems (a0 : FVec F S4096x21x64 .f32) : FVec F S4096x20x64 .f32 :=
  extractStridedSlice S4096x20x64 ![0, 1, 0] a0 slices_S4096x21x64_S4096x20x64_0_1_0

/-- The user slot of every batch row: slot 0 of the embeddings. -/
def refUser (a0 : FVec F S4096x21x64 .f32) : FVec F S4096x1x64 .f32 :=
  extractStridedSlice S4096x1x64 ![0, 0, 0] a0 slices_S4096x21x64_S4096x1x64_0_0_0

/-- The leaky rectifier on the array of pair vectors: z where z is at least zero, the slope times z elsewhere. -/
def refLeakyPairs (z : FVec F S4096x20x20x64 .f32) : FVec F S4096x20x20x64 .f32 :=
  select (cmpf .oge z (broadcastInDim S4096x20x20x64 ![] bcast_S_S4096x20x20x64 (constant S_ .f32 0x00000000#32))) z
    (mulf (broadcastInDim S4096x20x20x64 ![] bcast_S_S4096x20x20x64 (constant S_ .f32 0x3C23D70A#32)) z)

/-- The leaky rectifier on the result array. -/
def refLeakyOut (z : FVec F S4096x20x64 .f32) : FVec F S4096x20x64 .f32 :=
  select (cmpf .oge z (broadcastInDim S4096x20x64 ![] bcast_S_S4096x20x64 (constant S_ .f32 0x00000000#32))) z
    (mulf (broadcastInDim S4096x20x64 ![] bcast_S_S4096x20x64 (constant S_ .f32 0x3C23D70A#32)) z)

/-- The pair scores, an array [4096, 20, 20, 1]. -/
def refScores (a0 : FVec F S4096x21x64 .f32) (a1 : FVec F S64x64 .f32) (a2 : FVec F S64 .f32) (a3 : FVec F S1x64 .f32)
    (a4 : FVec F S1 .f32) : FVec F S4096x20x20x1 .f32 :=
  have v1 : FVec F S4096x20x64 .f32 := refItems a0
  have v4 : FVec F S4096x20x1x64 .f32 := broadcastInDim S4096x20x1x64 ![0, 1, 3] bcast_S4096x20x64_S4096x20x1x64_0_1_3 v1
  have v5 : FVec F S4096x1x20x64 .f32 := broadcastInDim S4096x1x20x64 ![0, 2, 3] bcast_S4096x20x64_S4096x1x20x64_0_2_3 v1
  have v6 : FVec F S4096x20x20x64 .f32 := broadcastInDim S4096x20x20x64 ![0, 1, 2, 3] bcast_S4096x20x1x64_S4096x20x20x64_0_1_2_3 v4
  have v7 : FVec F S4096x20x20x64 .f32 := broadcastInDim S4096x20x20x64 ![0, 1, 2, 3] bcast_S4096x1x20x64_S4096x20x20x64_0_1_2_3 v5
  have v8 : FVec F S4096x20x20x64 .f32 := addf v6 v7
  have v9 : FVec F S4096x20x20x64 .f32 := Host.dotGeneral dot_S4096x20x20x64_S64x64_S4096x20x20x64_3_1_012_0_n_n none v8 a1
  have v10 : FVec F S1x1x1x64 .f32 := broadcastInDim S1x1x1x64 ![3] bcast_S64_S1x1x1x64_3 a2
  have v11 : FVec F S4096x20x20x64 .f32 := broadcastInDim S4096x20x20x64 ![0, 1, 2, 3] bcast_S1x1x1x64_S4096x20x20x64_0_1_2_3 v10
  have v12 : FVec F S4096x20x20x64 .f32 := addf v9 v11
  have v13 : FVec F S4096x20x20x64 .f32 := refLeakyPairs v12
  have v14 : FVec F S4096x20x20x1 .f32 := Host.dotGeneral dot_S4096x20x20x64_S1x64_S4096x20x20x1_3_1_012_0_n_n none v13 a3
  have v15 : FVec F S1x1x1x1 .f32 := broadcastInDim S1x1x1x1 ![3] bcast_S1_S1x1x1x1_3 a4
  have v16 : FVec F S4096x20x20x1 .f32 := broadcastInDim S4096x20x20x1 ![0, 1, 2, 3] bcast_S1x1x1x1_S4096x20x20x1_0_1_2_3 v15
  addf v14 v16

/-- The softmax over the neighbour axis (axis 2) of an array of scores [4096, 20, 20, 1]. -/
def refWeights (s : FVec F S4096x20x20x1 .f32) : FVec F S4096x20x20x1 .f32 :=
  have v18 : FVec F S4096x20x1 .f32 := Host.reduce FloatOps.maximumf s (constant S_ .f32 0xFF800000#32) reducesTo_S4096x20x20x1_S4096x20x1_d2 h_S_
  have v19 : FVec F S4096x20x1 .f32 := broadcastInDim S4096x20x1 ![] bcast_S_S4096x20x1 (constant S_ .f32 0xFF800000#32)
  have v20 : FVec F S4096x20x1 .f32 := maximumf v19 v18
  have v21 : FVec F S4096x20x1x1 .f32 := broadcastInDim S4096x20x1x1 ![0, 1, 3] bcast_S4096x20x1_S4096x20x1x1_0_1_3 v20
  have v22 : FVec F S4096x20x20x1 .f32 := broadcastInDim S4096x20x20x1 ![0, 1, 2, 3] bcast_S4096x20x1x1_S4096x20x20x1_0_1_2_3 v21
  have v23 : FVec F S4096x20x20x1 .f32 := subf s v22
  have v24 : FVec F S4096x20x20x1 .f32 := Host.exp v23
  have v25 : FVec F S4096x20x1 .f32 := Host.reduceAdd v24 (constant S_ .f32 0x00000000#32) reducesTo_S4096x20x20x1_S4096x20x1_d2 h_S_
  have v26 : FVec F S4096x20x1x1 .f32 := broadcastInDim S4096x20x1x1 ![0, 1, 3] bcast_S4096x20x1_S4096x20x1x1_0_1_3 v25
  have v27 : FVec F S4096x20x20x1 .f32 := broadcastInDim S4096x20x20x1 ![0, 1, 2, 3] bcast_S4096x20x1x1_S4096x20x20x1_0_1_2_3 v26
  Host.divf v24 v27

/-- The result array from the embeddings, the attention weights and the two dense layers' weights and biases. -/
def refOut (a0 : FVec F S4096x21x64 .f32) (al : FVec F S4096x20x20x1 .f32) (a5 : FVec F S64x64 .f32) (a6 : FVec F S64 .f32)
    (a7 : FVec F S64x64 .f32) (a8 : FVec F S64 .f32) : FVec F S4096x20x64 .f32 :=
  have v0 : FVec F S4096x1x64 .f32 := refUser a0
  have v1 : FVec F S4096x20x64 .f32 := refItems a0
  have v2 : FVec F S4096x20x64 .f32 := broadcastInDim S4096x20x64 ![0, 1, 2] bcast_S4096x1x64_S4096x20x64_0_1_2 v0
  have v3 : FVec F S4096x20x64 .f32 := mulf v2 v1
  have v29 : FVec F S4096x1x20x64 .f32 := broadcastInDim S4096x1x20x64 ![0, 2, 3] bcast_S4096x20x64_S4096x1x20x64_0_2_3 v1
  have v30 : FVec F S4096x20x20x64 .f32 := broadcastInDim S4096x20x20x64 ![0, 1, 2, 3] bcast_S4096x20x20x1_S4096x20x20x64_0_1_2_3 al
  have v31 : FVec F S4096x20x20x64 .f32 := broadcastInDim S4096x20x20x64 ![0, 1, 2, 3] bcast_S4096x1x20x64_S4096x20x20x64_0_1_2_3 v29
  have v32 : FVec F S4096x20x20x64 .f32 := mulf v30 v31
  have v33 : FVec F S4096x20x64 .f32 := Host.reduceAdd v32 (constant S_ .f32 0x00000000#32) reducesTo_S4096x20x20x64_S4096x20x64_d2 h_S_
  have v34 : FVec F S4096x20x64 .f32 := Host.dotGeneral dot_S4096x20x64_S64x64_S4096x20x64_2_1_01_0_n_n none v33 a5
  have v35 : FVec F S1x1x64 .f32 := broadcastInDim S1x1x64 ![2] bcast_S64_S1x1x64_2 a6
  have v36 : FVec F S4096x20x64 .f32 := broadcastInDim S4096x20x64 ![0, 1, 2] bcast_S1x1x64_S4096x20x64_0_1_2 v35
  have v37 : FVec F S4096x20x64 .f32 := addf v34 v36
  have v38 : FVec F S4096x20x64 .f32 := addf v37 v1
  have v39 : FVec F S4096x20x64 .f32 := Host.dotGeneral dot_S4096x20x64_S64x64_S4096x20x64_2_1_01_0_n_n none v38 a7
  have v40 : FVec F S1x1x64 .f32 := broadcastInDim S1x1x64 ![2] bcast_S64_S1x1x64_2 a8
  have v41 : FVec F S4096x20x64 .f32 := broadcastInDim S4096x20x64 ![0, 1, 2] bcast_S1x1x64_S4096x20x64_0_1_2 v40
  have v42 : FVec F S4096x20x64 .f32 := addf v39 v41
  have v43 : FVec F S4096x20x64 .f32 := addf v3 v42
  refLeakyOut v43

/-- The reference's result as one term of its nine arguments. -/
def refTerm (a0 : FVec F S4096x21x64 .f32) (a1 : FVec F S64x64 .f32) (a2 : FVec F S64 .f32) (a3 : FVec F S1x64 .f32)
    (a4 : FVec F S1 .f32) (a5 : FVec F S64x64 .f32) (a6 : FVec F S64 .f32) (a7 : FVec F S64x64 .f32) (a8 : FVec F S64 .f32) :
    FVec F S4096x20x64 .f32 :=
  refOut a0 (refWeights (refScores a0 a1 a2 a3 a4)) a5 a6 a7 a8

end Cert.ReferenceIdeal.RefValue

end
-- ==== Proof.RefRun.lean ====
/-
  The reference program's run. The program is a straight line of array operations: forty-seven of its own and, twice,
  the seven of a leaky rectifier written out of line (the zero and its broadcast, the comparison, the slope and its
  broadcast, the product, the selection), sixty-one in all, each writing one buffer of its own. Listed in order they are
  the whole program, so every execution of it terminates with each buffer at the composition of the operations that
  lead to it, applied to the argument arrays as launched; no operation writes an argument, so these end as they began.
  The composition at the result buffer is the term `refTerm`, which is the same operations composed by name.
-/
import proofs.«179504_j42984032698946_1_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's sixty-one operations in order, the two out-of-line rectifiers written out where they are called: each
    over the buffers its call names, its argument the buffer the call passes. -/
abbrev ops : List (HloOp τ sig (Elt F)) :=
  [ unary main_arg0 main_v0 ((extractStridedSlice S4096x1x64 ![0, 0, 0] · slices_S4096x21x64_S4096x1x64_0_0_0) : (⟨S4096x21x64, .f32⟩ : BufTy).Contents (Elt F) → (⟨S4096x1x64, .f32⟩ : BufTy).Contents (Elt F)),
    unary main_arg0 main_v1 ((extractStridedSlice S4096x20x64 ![0, 1, 0] · slices_S4096x21x64_S4096x20x64_0_1_0) : (⟨S4096x21x64, .f32⟩ : BufTy).Contents (Elt F) → (⟨S4096x20x64, .f32⟩ : BufTy).Contents (Elt F)),
    unary main_v0 main_v2 (broadcastInDim S4096x20x64 ![0, 1, 2] bcast_S4096x1x64_S4096x20x64_0_1_2 : (⟨S4096x1x64, .f32⟩ : BufTy).Contents (Elt F) → (⟨S4096x20x64, .f32⟩ : BufTy).Contents (Elt F)),
    binary main_v2 main_v1 main_v3 (mulf : (⟨S4096x20x64, .f32⟩ : BufTy).Contents (Elt F) → (⟨S4096x20x64, .f32⟩ : BufTy).Contents (Elt F) → (⟨S4096x20x64, .f32⟩ : BufTy).Contents (Elt F)),
    unary main_v1 main_v4 (broadcastInDim S4096x20x1x64 ![0, 1, 3] bcast_S4096x20x64_S4096x20x1x64_0_1_3 : (⟨S4096x20x64, .f32⟩ : BufTy).Contents (Elt F) → (⟨S4096x20x1x64, .f32⟩ : BufTy).Contents (Elt F)),
    unary main_v1 main_v5 (broadcastInDim S4096x1x20x64 ![0, 2, 3] bcast_S4096x20x64_S4096x1x20x64_0_2_3 : (⟨S4096x20x64, .f32⟩ : BufTy).Contents (Elt F) → (⟨S4096x1x20x64, .f32⟩ : BufTy).Contents (Elt F)),
    unary main_v4 main_v6 (broadcastInDim S4096x20x20x64 ![0, 1, 2, 3] bcast_S4096x20x1x64_S4096x20x20x64_0_1_2_3 : (⟨S4096x20x1x64, .f32⟩ : BufTy).Contents (Elt F) → (⟨S4096x20x20x64, .f32⟩ : BufTy).Contents (Elt F)),
    unary main_v5 main_v7 (broadcastInDim S4096x20x20x64 ![0, 1, 2, 3] bcast_S4096x1x20x64_S4096x20x20x64_0_1_2_3 : (⟨S4096x1x20x64, .f32⟩ : BufTy).Contents (Elt F) → (⟨S4096x20x20x64, .f32⟩ : BufTy).Contents (Elt F)),
    binary main_v6 main_v7 main_v8 (addf : (⟨S4096x20x20x64, .f32⟩ : BufTy).Contents (Elt F) → (⟨S4096x20x20x64, .f32⟩ : BufTy).Contents (Elt F) → (⟨S4096x20x20x64, .f32⟩ : BufTy).Contents (Elt F)),
    binary main_v8 main_arg1 main_v9 ((fun l r => Host.dotGeneral dot_S4096x20x20x64_S64x64_S4096x20x20x64_3_1_012_0_n_n none l r) : (⟨S4096x20x20x64, .f32⟩ : BufTy).Contents (Elt F) → (⟨S64x64, .f32⟩ : BufTy).Contents (Elt F) → (⟨S4096x20x20x64, .f32⟩ : BufTy).Contents (Elt F)),
    unary main_arg2 main_v10 (broadcastInDim S1x1x1x64 ![3] bcast_S64_S1x1x1x64_3 : (⟨S64, .f32⟩ : BufTy).Contents (Elt F) → (⟨S1x1x1x64, .f32⟩ : BufTy).Contents (Elt F)),
    unary main_v10 main_v11 (broadcastInDim S4096x20x20x64 ![0, 1, 2, 3] bcast_S1x1x1x64_S4096x20x20x64_0_1_2_3 : (⟨S1x1x1x64, .f32⟩ : BufTy).Contents (Elt F) → (⟨S4096x20x20x64, .f32⟩ : BufTy).Contents (Elt F)),
    binary main_v9 main_v11 main_v12 (addf : (⟨S4096x20x20x64, .f32⟩ : BufTy).Contents (Elt F) → (⟨S4096x20x20x64, .f32⟩ : BufTy).Contents (Elt F) → (⟨S4096x20x20x64, .f32⟩ : BufTy).Contents (Elt F)),
    TRef.nullary main_call0.cst (constant S_ .f32 0x00000000#32),
    TRef.unary main_call0.cst main_call0.v0 (broadcastInDim S4096x20x20x64 ![] bcast_S_S4096x20x20x64),
    TRef.binary (.of main_v12 : TRef sig ⟨S4096x20x20x64, .f32⟩) main_call0.v0 main_call0.v1 (cmpf .oge),
    TRef.nullary main_call0.cst_0 (constant S_ .f32 0x3C23D70A#32),
    TRef.unary main_call0.cst_0 main_call0.v2 (broadcastInDim S4096x20x20x64 ![] bcast_S_S4096x20x20x64),
    TRef.binary main_call0.v2 (.of main_v12 : TRef sig ⟨S4096x20x20x64, .f32⟩) main_call0.v3 mulf,
    TRef.ternary main_call0.v1 (.of main_v12 : TRef sig ⟨S4096x20x20x64, .f32⟩) main_call0.v3 main_call0.call0.v0 select,
    binary main_v13 main_arg3 main_v14 ((fun l r => Host.dotGeneral dot_S4096x20x20x64_S1x64_S4096x20x20x1_3_1_012_0_n_n none l r) : (⟨S4096x20x20x64, .f32⟩ : BufTy).Contents (Elt F) → (⟨S1x64, .f32⟩ : BufTy).Contents (Elt F) → (⟨S4096x20x20x1, .f32⟩ : BufTy).Contents (Elt F)),
    unary main_arg4 main_v15 (broadcastInDim S1x1x1x1 ![3] bcast_S1_S1x1x1x1_3 : (⟨S1, .f32⟩ : BufTy).Contents (Elt F) → (⟨S1x1x1x1, .f32⟩ : BufTy).Contents (Elt F)),
    unary main_v15 main_v16 (broadcastInDim S4096x20x20x1 ![0, 1, 2, 3] bcast_S1x1x1x1_S4096x20x20x1_0_1_2_3 : (⟨S1x1x1x1, .f32⟩ : BufTy).Contents (Elt F) → (⟨S4096x20x20x1, .f32⟩ : BufTy).Contents (Elt F)),
    binary main_v14 main_v16 main_v17 (addf : (⟨S4096x20x20x1, .f32⟩ : BufTy).Contents (Elt F) → (⟨S4096x20x20x1, .f32⟩ : BufTy).Contents (Elt F) → (⟨S4096x20x20x1, .f32⟩ : BufTy).Contents (Elt F)),
    nullary main_cst (constant S_ .f32 0xFF800000#32),
    binary main_v17 main_cst main_v18 ((fun x v => Host.reduce FloatOps.maximumf x v reducesTo_S4096x20x20x1_S4096x20x1_d2 h_S_) : (⟨S4096x20x20x1, .f32⟩ : BufTy).Contents (Elt F) → (⟨S_, .f32⟩ : BufTy).Contents (Elt F) → (⟨S4096x20x1, .f32⟩ : BufTy).Contents (Elt F)),
    nullary main_cst_0 (constant S_ .f32 0xFF800000#32),
    unary main_cst_0 main_v19 (broadcastInDim S4096x20x1 ![] bcast_S_S4096x20x1 : (⟨S_, .f32⟩ : BufTy).Contents (Elt F) → (⟨S4096x20x1, .f32⟩ : BufTy).Contents (Elt F)),
    binary main_v19 main_v18 main_v20 (maximumf : (⟨S4096x20x1, .f32⟩ : BufTy).Contents (Elt F) → (⟨S4096x20x1, .f32⟩ : BufTy).Contents (Elt F) → (⟨S4096x20x1, .f32⟩ : BufTy).Contents (Elt F)),
    unary main_v20 main_v21 (broadcastInDim S4096x20x1x1 ![0, 1, 3] bcast_S4096x20x1_S4096x20x1x1_0_1_3 : (⟨S4096x20x1, .f32⟩ : BufTy).Contents (Elt F) → (⟨S4096x20x1x1, .f32⟩ : BufTy).Contents (Elt F)),
    unary main_v21 main_v22 (broadcastInDim S4096x20x20x1 ![0, 1, 2, 3] bcast_S4096x20x1x1_S4096x20x20x1_0_1_2_3 : (⟨S4096x20x1x1, .f32⟩ : BufTy).Contents (Elt F) → (⟨S4096x20x20x1, .f32⟩ : BufTy).Contents (Elt F)),
    binary main_v17 main_v22 main_v23 (subf : (⟨S4096x20x20x1, .f32⟩ : BufTy).Contents (Elt F) → (⟨S4096x20x20x1, .f32⟩ : BufTy).Contents (Elt F) → (⟨S4096x20x20x1, .f32⟩ : BufTy).Contents (Elt F)),
    unary main_v23 main_v24 (Host.exp : (⟨S4096x20x20x1, .f32⟩ : BufTy).Contents (Elt F) → (⟨S4096x20x20x1, .f32⟩ : BufTy).Contents (Elt F)),
    nullary main_cst_1 (constant S_ .f32 0x00000000#32),
    binary main_v24 main_cst_1 main_v25 ((fun x v => Host.reduceAdd x v reducesTo_S4096x20x20x1_S4096x20x1_d2 h_S_) : (⟨S4096x20x20x1, .f32⟩ : BufTy).Contents (Elt F) → (⟨S_, .f32⟩ : BufTy).Contents (Elt F) → (⟨S4096x20x1, .f32⟩ : BufTy).Contents (Elt F)),
    unary main_v25 main_v26 (broadcastInDim S4096x20x1x1 ![0, 1, 3] bcast_S4096x20x1_S4096x20x1x1_0_1_3 : (⟨S4096x20x1, .f32⟩ : BufTy).Contents (Elt F) → (⟨S4096x20x1x1, .f32⟩ : BufTy).Contents (Elt F)),
    unary main_v26 main_v27 (broadcastInDim S4096x20x20x1 ![0, 1, 2, 3] bcast_S4096x20x1x1_S4096x20x20x1_0_1_2_3 : (⟨S4096x20x1x1, .f32⟩ : BufTy).Contents (Elt F) → (⟨S4096x20x20x1, .f32⟩ : BufTy).Contents (Elt F)),
    binary main_v24 main_v27 main_v28 (Host.divf : (⟨S4096x20x20x1, .f32⟩ : BufTy).Contents (Elt F) → (⟨S4096x20x20x1, .f32⟩ : BufTy).Contents (Elt F) → (⟨S4096x20x20x1, .f32⟩ : BufTy).Contents (Elt F)),
    unary main_v1 main_v29 (broadcastInDim S4096x1x20x64 ![0, 2, 3] bcast_S4096x20x64_S4096x1x20x64_0_2_3 : (⟨S4096x20x64, .f32⟩ : BufTy).Contents (Elt F) → (⟨S4096x1x20x64, .f32⟩ : BufTy).Contents (Elt F)),
    unary main_v28 main_v30 (broadcastInDim S4096x20x20x64 ![0, 1, 2, 3] bcast_S4096x20x20x1_S4096x20x20x64_0_1_2_3 : (⟨S4096x20x20x1, .f32⟩ : BufTy).Contents (Elt F) → (⟨S4096x20x20x64, .f32⟩ : BufTy).Contents (Elt F)),
    unary main_v29 main_v31 (broadcastInDim S4096x20x20x64 ![0, 1, 2, 3] bcast_S4096x1x20x64_S4096x20x20x64_0_1_2_3 : (⟨S4096x1x20x64, .f32⟩ : BufTy).Contents (Elt F) → (⟨S4096x20x20x64, .f32⟩ : BufTy).Contents (Elt F)),
    binary main_v30 main_v31 main_v32 (mulf : (⟨S4096x20x20x64, .f32⟩ : BufTy).Contents (Elt F) → (⟨S4096x20x20x64, .f32⟩ : BufTy).Contents (Elt F) → (⟨S4096x20x20x64, .f32⟩ : BufTy).Contents (Elt F)),
    nullary main_cst_2 (constant S_ .f32 0x00000000#32),
    binary main_v32 main_cst_2 main_v33 ((fun x v => Host.reduceAdd x v reducesTo_S4096x20x20x64_S4096x20x64_d2 h_S_) : (⟨S4096x20x20x64, .f32⟩ : BufTy).Contents (Elt F) → (⟨S_, .f32⟩ : BufTy).Contents (Elt F) → (⟨S4096x20x64, .f32⟩ : BufTy).Contents (Elt F)),
    binary main_v33 main_arg5 main_v34 ((fun l r => Host.dotGeneral dot_S4096x20x64_S64x64_S4096x20x64_2_1_01_0_n_n none l r) : (⟨S4096x20x64, .f32⟩ : BufTy).Contents (Elt F) → (⟨S64x64, .f32⟩ : BufTy).Contents (Elt F) → (⟨S4096x20x64, .f32⟩ : BufTy).Contents (Elt F)),
    unary main_arg6 main_v35 (broadcastInDim S1x1x64 ![2] bcast_S64_S1x1x64_2 : (⟨S64, .f32⟩ : BufTy).Contents (Elt F) → (⟨S1x1x64, .f32⟩ : BufTy).Contents (Elt F)),
    unary main_v35 main_v36 (broadcastInDim S4096x20x64 ![0, 1, 2] bcast_S1x1x64_S4096x20x64_0_1_2 : (⟨S1x1x64, .f32⟩ : BufTy).Contents (Elt F) → (⟨S4096x20x64, .f32⟩ : BufTy).Contents (Elt F)),
    binary main_v34 main_v36 main_v37 (addf : (⟨S4096x20x64, .f32⟩ : BufTy).Contents (Elt F) → (⟨S4096x20x64, .f32⟩ : BufTy).Contents (Elt F) → (⟨S4096x20x64, .f32⟩ : BufTy).Contents (Elt F)),
    binary main_v37 main_v1 main_v38 (addf : (⟨S4096x20x64, .f32⟩ : BufTy).Contents (Elt F) → (⟨S4096x20x64, .f32⟩ : BufTy).Contents (Elt F) → (⟨S4096x20x64, .f32⟩ : BufTy).Contents (Elt F)),
    binary main_v38 main_arg7 main_v39 ((fun l r => Host.dotGeneral dot_S4096x20x64_S64x64_S4096x20x64_2_1_01_0_n_n none l r) : (⟨S4096x20x64, .f32⟩ : BufTy).Contents (Elt F) → (⟨S64x64, .f32⟩ : BufTy).Contents (Elt F) → (⟨S4096x20x64, .f32⟩ : BufTy).Contents (Elt F)),
    unary main_arg8 main_v40 (broadcastInDim S1x1x64 ![2] bcast_S64_S1x1x64_2 : (⟨S64, .f32⟩ : BufTy).Contents (Elt F) → (⟨S1x1x64, .f32⟩ : BufTy).Contents (Elt F)),
    unary main_v40 main_v41 (broadcastInDim S4096x20x64 ![0, 1, 2] bcast_S1x1x64_S4096x20x64_0_1_2 : (⟨S1x1x64, .f32⟩ : BufTy).Contents (Elt F) → (⟨S4096x20x64, .f32⟩ : BufTy).Contents (Elt F)),
    binary main_v39 main_v41 main_v42 (addf : (⟨S4096x20x64, .f32⟩ : BufTy).Contents (Elt F) → (⟨S4096x20x64, .f32⟩ : BufTy).Contents (Elt F) → (⟨S4096x20x64, .f32⟩ : BufTy).Contents (Elt F)),
    binary main_v3 main_v42 main_v43 (addf : (⟨S4096x20x64, .f32⟩ : BufTy).Contents (Elt F) → (⟨S4096x20x64, .f32⟩ : BufTy).Contents (Elt F) → (⟨S4096x20x64, .f32⟩ : BufTy).Contents (Elt F)),
    TRef.nullary main_call1.cst (constant S_ .f32 0x00000000#32),
    TRef.unary main_call1.cst main_call1.v0 (broadcastInDim S4096x20x64 ![] bcast_S_S4096x20x64),
    TRef.binary (.of main_v43 : TRef sig ⟨S4096x20x64, .f32⟩) main_call1.v0 main_call1.v1 (cmpf .oge),
    TRef.nullary main_call1.cst_0 (constant S_ .f32 0x3C23D70A#32),
    TRef.unary main_call1.cst_0 main_call1.v2 (broadcastInDim S4096x20x64 ![] bcast_S_S4096x20x64),
    TRef.binary main_call1.v2 (.of main_v43 : TRef sig ⟨S4096x20x64, .f32⟩) main_call1.v3 mulf,
    TRef.ternary main_call1.v1 (.of main_v43 : TRef sig ⟨S4096x20x64, .f32⟩) main_call1.v3 main_call1.call0.v0 select ]

set_option maxRecDepth 8192 in
/-- The program is that list run in order: the rectifiers' bodies unfold at their calls. -/
theorem main_eq (c : Dev nD) : main (F := F) c = seq ops := rfl

/-- No buffer and no semaphore of the signature is scoped: all are tensor values. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches buffers of the core only. -/
theorem ops_sub : (ops : List (HloOp τ sig (Elt F))).Forall fun op => op.bufs ⊆ tcRefs τ sig :=
  ⟨unary_bufs_sub .., unary_bufs_sub .., unary_bufs_sub .., binary_bufs_sub .., unary_bufs_sub .., unary_bufs_sub ..,
    unary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., binary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., unary_bufs_sub .., unary_bufs_sub .., unary_bufs_sub .., binary_bufs_sub ..,
    nullary_bufs_sub .., binary_bufs_sub .., binary_bufs_sub .., unary_bufs_sub .., unary_bufs_sub .., binary_bufs_sub ..,
    binary_bufs_sub .., binary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub ..⟩

set_option maxRecDepth 8192 in
set_option maxHeartbeats 2000000 in
/-- Every execution of the program terminates with the result buffer at `refTerm` of the argument arrays as launched,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v44).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.RefValue

end
-- ==== Proof.RefScoresRead.lean ====
/-
  The reference's pair scores read at an index, at the ideal values: the entry (b, i, j, 0) is the score of the pair (i, j) of batch row b.

  The array of scores is built in five layers, and each is read here as a plain function of coordinates. The item
  slice at (b, i, d) is slot i + 1 of the embeddings. The pair array at (b, i, j, d) is item i plus item j, the two
  broadcasts each forgetting one of the two middle coordinates. A product with a weight matrix whose second axis is
  contracted is, at (b, i, j, e), the sum over d of the left factor at (b, i, j, d) times the matrix at (e, d); with
  the bias row added this is the dense layer of the specification. The rectifier acts entry by entry. The last product
  contracts against the single weight row, and the scalar bias is added at every entry. No property of the extended
  reals is used beyond the definitions: both sides are the same nested sums, term by term.
-/
import proofs.«179504_j42984032698946_1_alg».proof.Proof.RefTerm
import proofs.«179504_j42984032698946_1_alg».proof.Proof.ItemAttention
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.ItemAttention

/-! ## The item slice and the pair sums -/

/-- The item slice at (b, i, d) is slot i + 1 of batch row b of the embeddings. -/
theorem refItems_apply (a0 : FVec Ideal S4096x21x64 .f32) (b : Fin 4096) (i : Fin 20) (d : Fin 64) :
    refItems (F := Ideal) a0 (ix3 b i d) = a0 (ix3 b i.succ d) := by
  unfold refItems
  refine extractStridedSlice_apply _ a0 _ (ix3 b i d) (ix3 b i.succ d) fun a => ?_
  match a with
  | ⟨0, _⟩ =>
    show b.val = 0 + b.val
    omega
  | ⟨1, _⟩ =>
    show i.succ.val = 1 + i.val
    rw [Fin.val_succ]; omega
  | ⟨2, _⟩ =>
    show d.val = 0 + d.val
    omega

/-- The items spread along a new third axis: the entry (b, i, j, d) is item i. -/
theorem spreadRows_apply (v : FVec Ideal S4096x20x64 .f32) (b : Fin 4096) (i j : Fin 20) (d : Fin 64) :
    broadcastInDim S4096x20x20x64 ![0, 1, 2, 3] bcast_S4096x20x1x64_S4096x20x20x64_0_1_2_3
      (broadcastInDim S4096x20x1x64 ![0, 1, 3] bcast_S4096x20x64_S4096x20x1x64_0_1_3 v) (ix4 b i j d) = v (ix3 b i d) := by
  refine (broadcastInDim_apply _ _ _ (ix4 b i j d) (ix4 b i (0 : Fin 1) d) fun a => ?_).trans ?_
  · match a with
    | ⟨0, _⟩ => rfl
    | ⟨1, _⟩ => rfl
    | ⟨2, _⟩ => rfl
    | ⟨3, _⟩ => rfl
  · refine broadcastInDim_apply _ _ _ (ix4 b i (0 : Fin 1) d) (ix3 b i d) fun a => ?_
    match a with
    | ⟨0, _⟩ => rfl
    | ⟨1, _⟩ => rfl
    | ⟨2, _⟩ => rfl

/-- The items spread along a new second axis: the entry (b, i, j, d) is item j. -/
theorem spreadCols_apply (v : FVec Ideal S4096x20x64 .f32) (b : Fin 4096) (i j : Fin 20) (d : Fin 64) :
    broadcastInDim S4096x20x20x64 ![0, 1, 2, 3] bcast_S4096x1x20x64_S4096x20x20x64_0_1_2_3
      (broadcastInDim S4096x1x20x64 ![0, 2, 3] bcast_S4096x20x64_S4096x1x20x64_0_2_3 v) (ix4 b i j d) = v (ix3 b j d) := by
  refine (broadcastInDim_apply _ _ _ (ix4 b i j d) (ix4 b (0 : Fin 1) j d) fun a => ?_).trans ?_
  · match a with
    | ⟨0, _⟩ => rfl
    | ⟨1, _⟩ => rfl
    | ⟨2, _⟩ => rfl
    | ⟨3, _⟩ => rfl
  · refine broadcastInDim_apply _ _ _ (ix4 b (0 : Fin 1) j d) (ix3 b j d) fun a => ?_
    match a with
    | ⟨0, _⟩ => rfl
    | ⟨1, _⟩ => rfl
    | ⟨2, _⟩ => rfl

/-! ## The two products read at an index

Each product contracts the last axis of its left factor against the second axis of its right factor. The left factor's
first three axes are the result's first three; the right factor's first axis is the result's last. One statement per
operand axis says which coordinate of the result, or of the contraction position, that axis reads. -/

section DenseProduct

theorem denseDot_lhs0 (y : S4096x20x20x64.Idx) (q : dot_S4096x20x20x64_S64x64_S4096x20x20x64_3_1_012_0_n_n.contr.Idx) :
    (dot_S4096x20x20x64_S64x64_S4096x20x20x64_3_1_012_0_n_n.lhsIdx y q (0 : Fin 4)).val = (y 0).val := by
  unfold DotDims.lhsIdx
  rw [dif_neg (show ¬((0 : Fin 4) : Fin S4096x20x20x64.rank) ∈ dot_S4096x20x20x64_S64x64_S4096x20x20x64_3_1_012_0_n_n.lhsBatch by decide),
    dif_pos (show ((0 : Fin 4) : Fin S4096x20x20x64.rank) ∈ dot_S4096x20x20x64_S64x64_S4096x20x20x64_3_1_012_0_n_n.lhsNonContracting by decide)]
  rfl

theorem denseDot_lhs1 (y : S4096x20x20x64.Idx) (q : dot_S4096x20x20x64_S64x64_S4096x20x20x64_3_1_012_0_n_n.contr.Idx) :
    (dot_S4096x20x20x64_S64x64_S4096x20x20x64_3_1_012_0_n_n.lhsIdx y q (1 : Fin 4)).val = (y 1).val := by
  unfold DotDims.lhsIdx
  rw [dif_neg (show ¬((1 : Fin 4) : Fin S4096x20x20x64.rank) ∈ dot_S4096x20x20x64_S64x64_S4096x20x20x64_3_1_012_0_n_n.lhsBatch by decide),
    dif_pos (show ((1 : Fin 4) : Fin S4096x20x20x64.rank) ∈ dot_S4096x20x20x64_S64x64_S4096x20x20x64_3_1_012_0_n_n.lhsNonContracting by decide)]
  rfl

theorem denseDot_lhs2 (y : S4096x20x20x64.Idx) (q : dot_S4096x20x20x64_S64x64_S4096x20x20x64_3_1_012_0_n_n.contr.Idx) :
    (dot_S4096x20x20x64_S64x64_S4096x20x20x64_3_1_012_0_n_n.lhsIdx y q (2 : Fin 4)).val = (y 2).val := by
  unfold DotDims.lhsIdx
  rw [dif_neg (show ¬((2 : Fin 4) : Fin S4096x20x20x64.rank) ∈ dot_S4096x20x20x64_S64x64_S4096x20x20x64_3_1_012_0_n_n.lhsBatch by decide),
    dif_pos (show ((2 : Fin 4) : Fin S4096x20x20x64.rank) ∈ dot_S4096x20x20x64_S64x64_S4096x20x20x64_3_1_012_0_n_n.lhsNonContracting by decide)]
  rfl

theorem denseDot_lhs3 (y : S4096x20x20x64.Idx) (q : dot_S4096x20x20x64_S64x64_S4096x20x20x64_3_1_012_0_n_n.contr.Idx) :
    (dot_S4096x20x20x64_S64x64_S4096x20x20x64_3_1_012_0_n_n.lhsIdx y q (3 : Fin 4)).val = (q ⟨0, by decide⟩).val :=
  dot_S4096x20x20x64_S64x64_S4096x20x20x64_3_1_012_0_n_n.lhsIdx_val_of_single rfl y q

theorem denseDot_rhs0 (y : S4096x20x20x64.Idx) (q : dot_S4096x20x20x64_S64x64_S4096x20x20x64_3_1_012_0_n_n.contr.Idx) :
    (dot_S4096x20x20x64_S64x64_S4096x20x20x64_3_1_012_0_n_n.rhsIdx y q (0 : Fin 2)).val = (y 3).val := by
  unfold DotDims.rhsIdx
  rw [dif_neg (show ¬((0 : Fin 2) : Fin S64x64.rank) ∈ dot_S4096x20x20x64_S64x64_S4096x20x20x64_3_1_012_0_n_n.rhsBatch by decide),
    dif_pos (show ((0 : Fin 2) : Fin S64x64.rank) ∈ dot_S4096x20x20x64_S64x64_S4096x20x20x64_3_1_012_0_n_n.rhsNonContracting by decide)]
  rfl

theorem denseDot_rhs1 (y : S4096x20x20x64.Idx) (q : dot_S4096x20x20x64_S64x64_S4096x20x20x64_3_1_012_0_n_n.contr.Idx) :
    (dot_S4096x20x20x64_S64x64_S4096x20x20x64_3_1_012_0_n_n.rhsIdx y q (1 : Fin 2)).val = (q ⟨0, by decide⟩).val :=
  dot_S4096x20x20x64_S64x64_S4096x20x20x64_3_1_012_0_n_n.rhsIdx_val_of_single rfl y q

/-- The product with a 64 by 64 matrix at (b, i, j, e): the sum over d of the left factor at (b, i, j, d) times the
    matrix at (e, d). -/
theorem denseDot_apply (l : FVec Ideal S4096x20x20x64 .f32) (r : FVec Ideal S64x64 .f32) (b : Fin 4096) (i j : Fin 20)
    (e : Fin 64) :
    Host.dotGeneral (F := Ideal) dot_S4096x20x20x64_S64x64_S4096x20x20x64_3_1_012_0_n_n none l r (ix4 b i j e) = ∑ d : Fin 64, l (ix4 b i j d) * r (ix2 e d) := by
  simp only [Host.dotGeneral]
  rw [Ideal.dotGeneral_apply, ← Equiv.sum_comp (ValueIdx.contrEquiv1 dot_S4096x20x20x64_S64x64_S4096x20x20x64_3_1_012_0_n_n 64 rfl rfl).symm]
  refine Finset.sum_congr rfl fun k _ => ?_
  have hk := ValueIdx.contrEquiv1_symm_val dot_S4096x20x20x64_S64x64_S4096x20x20x64_3_1_012_0_n_n 64 rfl rfl k
  have el : dot_S4096x20x20x64_S64x64_S4096x20x20x64_3_1_012_0_n_n.lhsIdx (ix4 b i j e) ((ValueIdx.contrEquiv1 dot_S4096x20x20x64_S64x64_S4096x20x20x64_3_1_012_0_n_n 64 rfl rfl).symm k) = ix4 b i j k :=
    funext fun a => Fin.ext (by
      match a with
      | ⟨0, _⟩ => exact denseDot_lhs0 _ _
      | ⟨1, _⟩ => exact denseDot_lhs1 _ _
      | ⟨2, _⟩ => exact denseDot_lhs2 _ _
      | ⟨3, _⟩ => exact (denseDot_lhs3 _ _).trans hk)
  have er : dot_S4096x20x20x64_S64x64_S4096x20x20x64_3_1_012_0_n_n.rhsIdx (ix4 b i j e) ((ValueIdx.contrEquiv1 dot_S4096x20x20x64_S64x64_S4096x20x20x64_3_1_012_0_n_n 64 rfl rfl).symm k) = ix2 e k :=
    funext fun a => Fin.ext (by
      match a with
      | ⟨0, _⟩ => exact denseDot_rhs0 _ _
      | ⟨1, _⟩ => exact (denseDot_rhs1 _ _).trans hk)
  rw [el, er]

end DenseProduct

section RowProduct

theorem rowDot_lhs0 (y : S4096x20x20x1.Idx) (q : dot_S4096x20x20x64_S1x64_S4096x20x20x1_3_1_012_0_n_n.contr.Idx) :
    (dot_S4096x20x20x64_S1x64_S4096x20x20x1_3_1_012_0_n_n.lhsIdx y q (0 : Fin 4)).val = (y 0).val := by
  unfold DotDims.lhsIdx
  rw [dif_neg (show ¬((0 : Fin 4) : Fin S4096x20x20x64.rank) ∈ dot_S4096x20x20x64_S1x64_S4096x20x20x1_3_1_012_0_n_n.lhsBatch by decide),
    dif_pos (show ((0 : Fin 4) : Fin S4096x20x20x64.rank) ∈ dot_S4096x20x20x64_S1x64_S4096x20x20x1_3_1_012_0_n_n.lhsNonContracting by decide)]
  rfl

theorem rowDot_lhs1 (y : S4096x20x20x1.Idx) (q : dot_S4096x20x20x64_S1x64_S4096x20x20x1_3_1_012_0_n_n.contr.Idx) :
    (dot_S4096x20x20x64_S1x64_S4096x20x20x1_3_1_012_0_n_n.lhsIdx y q (1 : Fin 4)).val = (y 1).val := by
  unfold DotDims.lhsIdx
  rw [dif_neg (show ¬((1 : Fin 4) : Fin S4096x20x20x64.rank) ∈ dot_S4096x20x20x64_S1x64_S4096x20x20x1_3_1_012_0_n_n.lhsBatch by decide),
    dif_pos (show ((1 : Fin 4) : Fin S4096x20x20x64.rank) ∈ dot_S4096x20x20x64_S1x64_S4096x20x20x1_3_1_012_0_n_n.lhsNonContracting by decide)]
  rfl

theorem rowDot_lhs2 (y : S4096x20x20x1.Idx) (q : dot_S4096x20x20x64_S1x64_S4096x20x20x1_3_1_012_0_n_n.contr.Idx) :
    (dot_S4096x20x20x64_S1x64_S4096x20x20x1_3_1_012_0_n_n.lhsIdx y q (2 : Fin 4)).val = (y 2).val := by
  unfold DotDims.lhsIdx
  rw [dif_neg (show ¬((2 : Fin 4) : Fin S4096x20x20x64.rank) ∈ dot_S4096x20x20x64_S1x64_S4096x20x20x1_3_1_012_0_n_n.lhsBatch by decide),
    dif_pos (show ((2 : Fin 4) : Fin S4096x20x20x64.rank) ∈ dot_S4096x20x20x64_S1x64_S4096x20x20x1_3_1_012_0_n_n.lhsNonContracting by decide)]
  rfl

theorem rowDot_lhs3 (y : S4096x20x20x1.Idx) (q : dot_S4096x20x20x64_S1x64_S4096x20x20x1_3_1_012_0_n_n.contr.Idx) :
    (dot_S4096x20x20x64_S1x64_S4096x20x20x1_3_1_012_0_n_n.lhsIdx y q (3 : Fin 4)).val = (q ⟨0, by decide⟩).val :=
  dot_S4096x20x20x64_S1x64_S4096x20x20x1_3_1_012_0_n_n.lhsIdx_val_of_single rfl y q

theorem rowDot_rhs0 (y : S4096x20x20x1.Idx) (q : dot_S4096x20x20x64_S1x64_S4096x20x20x1_3_1_012_0_n_n.contr.Idx) :
    (dot_S4096x20x20x64_S1x64_S4096x20x20x1_3_1_012_0_n_n.rhsIdx y q (0 : Fin 2)).val = (y 3).val := by
  unfold DotDims.rhsIdx
  rw [dif_neg (show ¬((0 : Fin 2) : Fin S1x64.rank) ∈ dot_S4096x20x20x64_S1x64_S4096x20x20x1_3_1_012_0_n_n.rhsBatch by decide),
    dif_pos (show ((0 : Fin 2) : Fin S1x64.rank) ∈ dot_S4096x20x20x64_S1x64_S4096x20x20x1_3_1_012_0_n_n.rhsNonContracting by decide)]
  rfl

theorem rowDot_rhs1 (y : S4096x20x20x1.Idx) (q : dot_S4096x20x20x64_S1x64_S4096x20x20x1_3_1_012_0_n_n.contr.Idx) :
    (dot_S4096x20x20x64_S1x64_S4096x20x20x1_3_1_012_0_n_n.rhsIdx y q (1 : Fin 2)).val = (q ⟨0, by decide⟩).val :=
  dot_S4096x20x20x64_S1x64_S4096x20x20x1_3_1_012_0_n_n.rhsIdx_val_of_single rfl y q

/-- The product with a single weight row at (b, i, j, 0): the sum over e of the left factor at (b, i, j, e) times the
    row at e. -/
theorem rowDot_apply (l : FVec Ideal S4096x20x20x64 .f32) (r : FVec Ideal S1x64 .f32) (b : Fin 4096) (i j : Fin 20) :
    Host.dotGeneral (F := Ideal) dot_S4096x20x20x64_S1x64_S4096x20x20x1_3_1_012_0_n_n none l r (ix4 b i j (0 : Fin 1))
      = ∑ e : Fin 64, l (ix4 b i j e) * r (ix2 (0 : Fin 1) e) := by
  simp only [Host.dotGeneral]
  rw [Ideal.dotGeneral_apply, ← Equiv.sum_comp (ValueIdx.contrEquiv1 dot_S4096x20x20x64_S1x64_S4096x20x20x1_3_1_012_0_n_n 64 rfl rfl).symm]
  refine Finset.sum_congr rfl fun k _ => ?_
  have hk := ValueIdx.contrEquiv1_symm_val dot_S4096x20x20x64_S1x64_S4096x20x20x1_3_1_012_0_n_n 64 rfl rfl k
  have el : dot_S4096x20x20x64_S1x64_S4096x20x20x1_3_1_012_0_n_n.lhsIdx (ix4 b i j (0 : Fin 1)) ((ValueIdx.contrEquiv1 dot_S4096x20x20x64_S1x64_S4096x20x20x1_3_1_012_0_n_n 64 rfl rfl).symm k) = ix4 b i j k :=
    funext fun a => Fin.ext (by
      match a with
      | ⟨0, _⟩ => exact rowDot_lhs0 _ _
      | ⟨1, _⟩ => exact rowDot_lhs1 _ _
      | ⟨2, _⟩ => exact rowDot_lhs2 _ _
      | ⟨3, _⟩ => exact (rowDot_lhs3 _ _).trans hk)
  have er : dot_S4096x20x20x64_S1x64_S4096x20x20x1_3_1_012_0_n_n.rhsIdx (ix4 b i j (0 : Fin 1)) ((ValueIdx.contrEquiv1 dot_S4096x20x20x64_S1x64_S4096x20x20x1_3_1_012_0_n_n 64 rfl rfl).symm k) = ix2 (0 : Fin 1) k :=
    funext fun a => Fin.ext (by
      match a with
      | ⟨0, _⟩ => exact rowDot_rhs0 _ _
      | ⟨1, _⟩ => exact (rowDot_rhs1 _ _).trans hk)
  rw [el, er]

end RowProduct

/-! ## The biases and the rectifier -/

/-- A bias of width 64 spread over the pair array: the entry (b, i, j, e) is the bias at e. -/
theorem biasRow_apply (a : FVec Ideal S64 .f32) (b : Fin 4096) (i j : Fin 20) (e : Fin 64) :
    broadcastInDim S4096x20x20x64 ![0, 1, 2, 3] bcast_S1x1x1x64_S4096x20x20x64_0_1_2_3
      (broadcastInDim S1x1x1x64 ![3] bcast_S64_S1x1x1x64_3 a) (ix4 b i j e) = a (ix1 e) := by
  refine (broadcastInDim_apply _ _ _ (ix4 b i j e) (ix4 (0 : Fin 1) (0 : Fin 1) (0 : Fin 1) e) fun c => ?_).trans ?_
  · match c with
    | ⟨0, _⟩ => rfl
    | ⟨1, _⟩ => rfl
    | ⟨2, _⟩ => rfl
    | ⟨3, _⟩ => rfl
  · refine broadcastInDim_apply _ _ _ (ix4 (0 : Fin 1) (0 : Fin 1) (0 : Fin 1) e) (ix1 e) fun c => ?_
    match c with
    | ⟨0, _⟩ => rfl

/-- A one-element bias spread over the score array: every entry is that element. -/
theorem biasScalar_apply (a : FVec Ideal S1 .f32) (b : Fin 4096) (i j : Fin 20) :
    broadcastInDim S4096x20x20x1 ![0, 1, 2, 3] bcast_S1x1x1x1_S4096x20x20x1_0_1_2_3
      (broadcastInDim S1x1x1x1 ![3] bcast_S1_S1x1x1x1_3 a) (ix4 b i j (0 : Fin 1)) = a (ix1 (0 : Fin 1)) := by
  refine (broadcastInDim_apply _ _ _ (ix4 b i j (0 : Fin 1)) (ix4 (0 : Fin 1) (0 : Fin 1) (0 : Fin 1) (0 : Fin 1)) fun c => ?_).trans ?_
  · match c with
    | ⟨0, _⟩ => rfl
    | ⟨1, _⟩ => rfl
    | ⟨2, _⟩ => rfl
    | ⟨3, _⟩ => rfl
  · refine broadcastInDim_apply _ _ _ (ix4 (0 : Fin 1) (0 : Fin 1) (0 : Fin 1) (0 : Fin 1)) (ix1 (0 : Fin 1)) fun c => ?_
    match c with
    | ⟨0, _⟩ => rfl

/-- The rectifier on the pair array acts entry by entry, and at each entry it is the specification's rectifier. -/
theorem refLeakyPairs_apply (z : FVec Ideal S4096x20x20x64 .f32) (y : S4096x20x20x64.Idx) :
    refLeakyPairs (F := Ideal) z y = lrelu (z y) := by
  unfold refLeakyPairs lrelu
  rw [select_apply, cmpf_apply, mulf_apply, broadcastInDim_scalar_apply, broadcastInDim_scalar_apply, constant_apply,
    constant_apply]
  rfl

theorem refScores_apply (a0 : FVec Ideal S4096x21x64 .f32) (a1 : FVec Ideal S64x64 .f32) (a2 : FVec Ideal S64 .f32)
    (a3 : FVec Ideal S1x64 .f32) (a4 : FVec Ideal S1 .f32) (b : Fin 4096) (i j : Fin 20) :
    refScores (F := Ideal) a0 a1 a2 a3 a4 (ix4 b i j (0 : Fin 1)) = scoreAt a0 a1 a2 a3 a4 b i j := by
  unfold refScores
  dsimp only
  rw [addf_apply, biasScalar_apply, rowDot_apply]
  unfold scoreAt score
  refine congrArg₂ (· + ·) (Finset.sum_congr rfl fun e _ => ?_) rfl
  refine congrArg₂ (· * ·) ?_ rfl
  rw [refLeakyPairs_apply, addf_apply, biasRow_apply, denseDot_apply]
  unfold pairHidden dense
  refine congrArg lrelu (congrArg₂ (· + ·) (Finset.sum_congr rfl fun d _ => ?_) rfl)
  refine congrArg₂ (· * ·) ?_ rfl
  rw [addf_apply, spreadRows_apply, spreadCols_apply, refItems_apply, refItems_apply]
  rfl

end Cert.ReferenceIdeal.RefValue

end
-- ==== Proof.RefWeightsRead.lean ====
/-
  The reference's softmax over the neighbour axis, read at one index at the ideal values.

  For an array of scores s of shape [4096, 20, 20, 1] the entry (b, i, j, 0) of the weights depends on the row
  (b, i, ·, 0) of twenty scores alone. Writing sc j' for s (b, i, j', 0): the row's top is the maximum of minus
  infinity with the maximum of the twenty scores (itself started from minus infinity); every score of the row is
  shifted by that top and exponentiated; the denominator is zero plus the sum of the twenty exponentials, and zero
  is neutral for addition on the extended reals; the entry is the quotient of the j-th exponential by that sum.
  That is the shifted softmax of the row at j.

  Nothing here evaluates the word of minus infinity: it stands on both sides as the same extended real. The word
  of zero is evaluated only as the starting value of the sum.

  The reading goes through four facts about the shapes. The index of the source array that lies over the reduced
  index (b, i, 0) with coordinate k on the dropped axis is (b, i, k, 0). An array over [4096, 20, 1], spread first
  along a new unit axis and then along the neighbour axis, reads at (b, i, j, 0) its own entry (b, i, 0), whatever
  j is. A maximum over the one axis is the fold of max over that axis's twenty coordinates; a sum over the one
  axis is the sum over them.
-/
import proofs.«179504_j42984032698946_1_alg».proof.Proof.RefTerm
import proofs.«179504_j42984032698946_1_alg».proof.Proof.ItemAttention
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.ItemAttention

/-- Dropping axis 2 of [4096, 20, 20, 1] leaves [4096, 20, 1], with the kept axes in their order. -/
private theorem reduces_row : S4096x20x20x1.Reduces [2] S4096x20x1 := by decide

/-- Over the reduced index (b, i, 0), the source index whose coordinate on the dropped axis is k is (b, i, k, 0):
    axes 0 and 1 lie below the dropped axis and keep their place, axis 3 lies above it and reads the reduced
    index's axis 2. -/
private theorem lift_row (b : Fin 4096) (i : Fin 20) (k : Fin 20) :
    reduces_row.lift (ix3 b i (0 : Fin 1)) k = ix4 b i k (0 : Fin 1) := by
  funext c
  refine Fin.ext ?_
  match c with
  | ⟨0, _⟩ => rfl
  | ⟨1, _⟩ => rfl
  | ⟨2, _⟩ => rfl
  | ⟨3, _⟩ => rfl

/-- An array m over [4096, 20, 1] spread to [4096, 20, 1, 1] (its axes going to axes 0, 1, 3) and then to
    [4096, 20, 20, 1] reads, at (b, i, j, 0), m at (b, i, 0): the second spreading sends the unit axis 2 to
    coordinate 0, the first reads axes 0 and 1 and sends m's unit axis to coordinate 0. -/
private theorem bcast_row_apply (m : FVec Ideal S4096x20x1 .f32) (b : Fin 4096) (i j : Fin 20) :
    broadcastInDim S4096x20x20x1 ![0, 1, 2, 3] bcast_S4096x20x1x1_S4096x20x20x1_0_1_2_3
        (broadcastInDim S4096x20x1x1 ![0, 1, 3] bcast_S4096x20x1_S4096x20x1x1_0_1_3 m) (ix4 b i j (0 : Fin 1))
      = m (ix3 b i (0 : Fin 1)) := by
  refine (broadcastInDim_apply _ _ _ _ (ix4 b i (0 : Fin 1) (0 : Fin 1)) fun a => ?_).trans ?_
  · match a with
    | ⟨0, _⟩ => rfl
    | ⟨1, _⟩ => rfl
    | ⟨2, _⟩ => rfl
    | ⟨3, _⟩ => rfl
  · refine broadcastInDim_apply _ _ _ _ (ix3 b i (0 : Fin 1)) fun a => ?_
    match a with
    | ⟨0, _⟩ => rfl
    | ⟨1, _⟩ => rfl
    | ⟨2, _⟩ => rfl

/-- The maximum over the neighbour axis, started from minus infinity, at (b, i, 0): the fold of max from minus
    infinity over the row's twenty scores. The maximum of extended reals commutes and associates, so the order in
    which the row is run through does not matter. -/
private theorem rowMax_apply (s : FVec Ideal S4096x20x20x1 .f32) (b : Fin 4096) (i : Fin 20) :
    Host.reduce FloatOps.maximumf s (constant S_ .f32 0xFF800000#32) reducesTo_S4096x20x20x1_S4096x20x1_d2 h_S_ (ix3 b i (0 : Fin 1))
      = (Finset.univ : Finset (Fin 20)).fold max negInfW (fun j' => s (ix4 b i j' (0 : Fin 1))) := by
  refine (Host.reduce_eq_fold_single FloatOps.maximumf s _ reducesTo_S4096x20x20x1_S4096x20x1_d2 reduces_row h_S_ _).trans ?_
  have hrow : (s ∘ reduces_row.lift (ix3 b i (0 : Fin 1))) = fun j' : Fin 20 => s (ix4 b i j' (0 : Fin 1)) :=
    funext fun k => congrArg s (lift_row b i k)
  rw [hrow]
  rfl

/-- The row's top at (b, i, 0): the maximum of minus infinity (a scalar spread over the whole array) with the row's
    maximum. -/
private theorem top_apply (s : FVec Ideal S4096x20x20x1 .f32) (b : Fin 4096) (i : Fin 20) :
    maximumf (broadcastInDim S4096x20x1 ![] bcast_S_S4096x20x1 (constant S_ .f32 0xFF800000#32))
        (Host.reduce FloatOps.maximumf s (constant S_ .f32 0xFF800000#32) reducesTo_S4096x20x20x1_S4096x20x1_d2 h_S_)
        (ix3 b i (0 : Fin 1))
      = rowTop (fun j' => s (ix4 b i j' (0 : Fin 1))) := by
  refine (maximumf_apply _ _ _).trans ?_
  exact congrArg₂ max (broadcastInDim_scalar_apply _ _ _) (rowMax_apply s b i)

/-- The scores shifted by a per-row quantity m and exponentiated, at (b, i, j, 0): the exponential of the score less
    m at (b, i, 0). -/
private theorem expShift_apply (s : FVec Ideal S4096x20x20x1 .f32) (m : FVec Ideal S4096x20x1 .f32) (b : Fin 4096)
    (i j : Fin 20) :
    Host.exp (subf s (broadcastInDim S4096x20x20x1 ![0, 1, 2, 3] bcast_S4096x20x1x1_S4096x20x20x1_0_1_2_3
        (broadcastInDim S4096x20x1x1 ![0, 1, 3] bcast_S4096x20x1_S4096x20x1x1_0_1_3 m))) (ix4 b i j (0 : Fin 1))
      = Ideal.exp (s (ix4 b i j (0 : Fin 1)) - m (ix3 b i (0 : Fin 1))) :=
  congrArg (fun z => Ideal.exp (s (ix4 b i j (0 : Fin 1)) - z)) (bcast_row_apply m b i j)

/-- The sum over the neighbour axis, started from zero, at (b, i, 0): the sum of the row's twenty entries (zero is
    neutral for addition). -/
private theorem rowSum_apply (e : FVec Ideal S4096x20x20x1 .f32) (b : Fin 4096) (i : Fin 20) :
    Host.reduceAdd e (constant S_ .f32 0x00000000#32) reducesTo_S4096x20x20x1_S4096x20x1_d2 h_S_ (ix3 b i (0 : Fin 1))
      = ∑ k : Fin 20, e (ix4 b i k (0 : Fin 1)) := by
  refine (hostReduceAdd_apply _ _ _ _ _).trans ?_
  refine (Ideal.hostReduceAdd_single _ reduces_row _ _ _).trans ?_
  refine (congrArg (· + _) Ideal.ofBits_zero_f32).trans ?_
  refine (zero_add _).trans ?_
  exact Finset.sum_congr rfl fun k _ => congrArg e (lift_row b i k)

/-- The weights at (b, i, j, 0) are the shifted softmax of the row of scores (b, i, ·, 0), at j: the numerator is the
    j-th shifted exponential, the denominator (the row's sum, spread back along the neighbour axis) the sum of all
    twenty, each shifted by the row's top. -/
theorem refWeights_apply (s : FVec Ideal S4096x20x20x1 .f32) (b : Fin 4096) (i j : Fin 20) :
    refWeights (F := Ideal) s (ix4 b i j (0 : Fin 1)) = softmaxRow (fun j' => s (ix4 b i j' (0 : Fin 1))) j := by
  unfold refWeights softmaxRow
  dsimp only
  refine (hostDivf_apply _ _ _).trans ?_
  refine congrArg₂ Ideal.div ?_ ?_
  · refine (expShift_apply s _ b i j).trans ?_
    rw [top_apply]
  · refine (bcast_row_apply _ b i j).trans ?_
    refine (rowSum_apply _ b i).trans ?_
    refine Finset.sum_congr rfl fun k _ => ?_
    refine (expShift_apply s _ b i k).trans ?_
    rw [top_apply]

end Cert.ReferenceIdeal.RefValue

end
-- ==== Proof.RefOutRead.lean ====
/-
  The reference's result from the attention weights read at an index, at the ideal values: from weights al, the result
  at (b, i, e) is the specification's output from those weights at batch row b.

  Every array of this last stage is read at an index as a plain expression. The item slice is the embeddings one slot
  up, the user slice is slot 0. A broadcast reads its operand at the coordinates it keeps, 0 on a unit axis. The sum
  over the neighbour axis, started from the word of zero, is the sum over the twenty neighbours. A dense layer's matrix
  product at (b, i, e) is the sum over d of the left operand at (b, i, d) times the weight at (e, d). The closing
  rectifier is the specification's rectifier of the element. Chained, these readings give the specification's formula
  term for term: beyond 0 + x = x no law of arithmetic is used.
-/
import proofs.«179504_j42984032698946_1_alg».proof.Proof.RefTerm
import proofs.«179504_j42984032698946_1_alg».proof.Proof.ItemAttention
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.ItemAttention

/-! ### The dense layers' matrix product: operand indices, axis by axis

The product contracts the left operand's last axis with the right operand's last axis; the left operand's first two axes
are the output's first two, the right operand's first axis is the output's last. -/

private theorem lhs_dense_0 (i : S4096x20x64.Idx) (q : dot_S4096x20x64_S64x64_S4096x20x64_2_1_01_0_n_n.contr.Idx) :
    (dot_S4096x20x64_S64x64_S4096x20x64_2_1_01_0_n_n.lhsIdx i q 0).val = (i 0).val := by
  unfold DotDims.lhsIdx
  rw [dif_neg (show ¬(0 : Fin S4096x20x64.rank) ∈ dot_S4096x20x64_S64x64_S4096x20x64_2_1_01_0_n_n.lhsBatch by decide),
    dif_pos (show (0 : Fin S4096x20x64.rank) ∈ dot_S4096x20x64_S64x64_S4096x20x64_2_1_01_0_n_n.lhsNonContracting by decide)]
  rfl

private theorem lhs_dense_1 (i : S4096x20x64.Idx) (q : dot_S4096x20x64_S64x64_S4096x20x64_2_1_01_0_n_n.contr.Idx) :
    (dot_S4096x20x64_S64x64_S4096x20x64_2_1_01_0_n_n.lhsIdx i q 1).val = (i 1).val := by
  unfold DotDims.lhsIdx
  rw [dif_neg (show ¬(1 : Fin S4096x20x64.rank) ∈ dot_S4096x20x64_S64x64_S4096x20x64_2_1_01_0_n_n.lhsBatch by decide),
    dif_pos (show (1 : Fin S4096x20x64.rank) ∈ dot_S4096x20x64_S64x64_S4096x20x64_2_1_01_0_n_n.lhsNonContracting by decide)]
  rfl

private theorem lhs_dense_2 (i : S4096x20x64.Idx) (q : dot_S4096x20x64_S64x64_S4096x20x64_2_1_01_0_n_n.contr.Idx) :
    (dot_S4096x20x64_S64x64_S4096x20x64_2_1_01_0_n_n.lhsIdx i q 2).val = (q ⟨0, by decide⟩).val :=
  dot_S4096x20x64_S64x64_S4096x20x64_2_1_01_0_n_n.lhsIdx_val_of_single rfl i q

private theorem rhs_dense_0 (i : S4096x20x64.Idx) (q : dot_S4096x20x64_S64x64_S4096x20x64_2_1_01_0_n_n.contr.Idx) :
    (dot_S4096x20x64_S64x64_S4096x20x64_2_1_01_0_n_n.rhsIdx i q 0).val = (i 2).val := by
  unfold DotDims.rhsIdx
  rw [dif_neg (show ¬(0 : Fin S64x64.rank) ∈ dot_S4096x20x64_S64x64_S4096x20x64_2_1_01_0_n_n.rhsBatch by decide),
    dif_pos (show (0 : Fin S64x64.rank) ∈ dot_S4096x20x64_S64x64_S4096x20x64_2_1_01_0_n_n.rhsNonContracting by decide)]
  rfl

private theorem rhs_dense_1 (i : S4096x20x64.Idx) (q : dot_S4096x20x64_S64x64_S4096x20x64_2_1_01_0_n_n.contr.Idx) :
    (dot_S4096x20x64_S64x64_S4096x20x64_2_1_01_0_n_n.rhsIdx i q 1).val = (q ⟨0, by decide⟩).val :=
  dot_S4096x20x64_S64x64_S4096x20x64_2_1_01_0_n_n.rhsIdx_val_of_single rfl i q

/-- The product at (b, i, e): the sum over d of the left operand at (b, i, d) times the right operand at (e, d). -/
private theorem dense_dot_apply (x : FVec Ideal S4096x20x64 .f32) (w : FVec Ideal S64x64 .f32) (b : Fin 4096) (i : Fin 20) (e : Fin 64) :
    Host.dotGeneral (F := Ideal) dot_S4096x20x64_S64x64_S4096x20x64_2_1_01_0_n_n none x w (ix3 b i e)
      = ∑ d : Fin 64, x (ix3 b i d) * w (ix2 e d) := by
  simp only [Host.dotGeneral]
  rw [Ideal.dotGeneral_apply, ← Equiv.sum_comp (ValueIdx.contrEquiv1 dot_S4096x20x64_S64x64_S4096x20x64_2_1_01_0_n_n 64 rfl rfl).symm]
  refine Finset.sum_congr rfl fun k _ => ?_
  have hk := ValueIdx.contrEquiv1_symm_val dot_S4096x20x64_S64x64_S4096x20x64_2_1_01_0_n_n 64 rfl rfl k
  have el : dot_S4096x20x64_S64x64_S4096x20x64_2_1_01_0_n_n.lhsIdx (ix3 b i e) ((ValueIdx.contrEquiv1 dot_S4096x20x64_S64x64_S4096x20x64_2_1_01_0_n_n 64 rfl rfl).symm k) = ix3 b i k :=
    funext fun a => Fin.ext (by
      match a with
      | ⟨0, _⟩ => exact lhs_dense_0 _ _
      | ⟨1, _⟩ => exact lhs_dense_1 _ _
      | ⟨2, _⟩ => exact (lhs_dense_2 _ _).trans hk)
  have er : dot_S4096x20x64_S64x64_S4096x20x64_2_1_01_0_n_n.rhsIdx (ix3 b i e) ((ValueIdx.contrEquiv1 dot_S4096x20x64_S64x64_S4096x20x64_2_1_01_0_n_n 64 rfl rfl).symm k) = ix2 e k :=
    funext fun a => Fin.ext (by
      match a with
      | ⟨0, _⟩ => exact rhs_dense_0 _ _
      | ⟨1, _⟩ => exact (rhs_dense_1 _ _).trans hk)
  rw [el, er]

/-! ### The slices of the embeddings, the products and the weighted average, read at an index -/

/-- The item slots read slot i + 1 of the embeddings. -/
private theorem refItems_apply (a0 : FVec Ideal S4096x21x64 .f32) (b : Fin 4096) (i : Fin 20) (d : Fin 64) :
    refItems (F := Ideal) a0 (ix3 b i d) = a0 (ix3 b i.succ d) := by
  unfold refItems
  exact extractStridedSlice_apply _ a0 _ (ix3 b i d) (ix3 b i.succ d) fun a =>
    match a with
    | ⟨0, _⟩ => by show b.val = 0 + b.val; omega
    | ⟨1, _⟩ => by show i.val + 1 = 1 + i.val; omega
    | ⟨2, _⟩ => by show d.val = 0 + d.val; omega

/-- The user slot reads slot 0 of the embeddings. -/
private theorem refUser_apply (a0 : FVec Ideal S4096x21x64 .f32) (b : Fin 4096) (d : Fin 64) :
    refUser (F := Ideal) a0 (ix3 b (0 : Fin 1) d) = a0 (ix3 b (0 : Fin 21) d) := by
  unfold refUser
  exact extractStridedSlice_apply _ a0 _ (ix3 b (0 : Fin 1) d) (ix3 b (0 : Fin 21) d) fun a =>
    match a with
    | ⟨0, _⟩ => by show b.val = 0 + b.val; omega
    | ⟨1, _⟩ => rfl
    | ⟨2, _⟩ => by show d.val = 0 + d.val; omega

/-- The user slot spread over the twenty items reads the user slot. -/
private theorem userSpread_apply (v0 : FVec Ideal S4096x1x64 .f32) (b : Fin 4096) (i : Fin 20) (e : Fin 64) :
    broadcastInDim S4096x20x64 ![0, 1, 2] bcast_S4096x1x64_S4096x20x64_0_1_2 v0 (ix3 b i e) = v0 (ix3 b (0 : Fin 1) e) :=
  broadcastInDim_apply _ _ v0 (ix3 b i e) (ix3 b (0 : Fin 1) e) fun a =>
    match a with
    | ⟨0, _⟩ => rfl
    | ⟨1, _⟩ => rfl
    | ⟨2, _⟩ => rfl

/-- The attention weights spread over the vector's width read the weight of the pair. -/
private theorem weightSpread_apply (al : FVec Ideal S4096x20x20x1 .f32) (b : Fin 4096) (i j : Fin 20) (d : Fin 64) :
    broadcastInDim S4096x20x20x64 ![0, 1, 2, 3] bcast_S4096x20x20x1_S4096x20x20x64_0_1_2_3 al (ix4 b i j d)
      = al (ix4 b i j (0 : Fin 1)) :=
  broadcastInDim_apply _ _ al (ix4 b i j d) (ix4 b i j (0 : Fin 1)) fun a =>
    match a with
    | ⟨0, _⟩ => rfl
    | ⟨1, _⟩ => rfl
    | ⟨2, _⟩ => rfl
    | ⟨3, _⟩ => rfl

/-- The items spread over the first item axis read the item of the second item axis. -/
private theorem itemSpread_apply (v1 : FVec Ideal S4096x20x64 .f32) (b : Fin 4096) (i j : Fin 20) (d : Fin 64) :
    broadcastInDim S4096x20x20x64 ![0, 1, 2, 3] bcast_S4096x1x20x64_S4096x20x20x64_0_1_2_3
        (broadcastInDim S4096x1x20x64 ![0, 2, 3] bcast_S4096x20x64_S4096x1x20x64_0_2_3 v1) (ix4 b i j d)
      = v1 (ix3 b j d) := by
  refine (broadcastInDim_apply _ _ _ (ix4 b i j d) (ix4 b (0 : Fin 1) j d) fun a =>
    match a with
    | ⟨0, _⟩ => rfl
    | ⟨1, _⟩ => rfl
    | ⟨2, _⟩ => rfl
    | ⟨3, _⟩ => rfl).trans ?_
  exact broadcastInDim_apply _ _ v1 (ix4 b (0 : Fin 1) j d) (ix3 b j d) fun a =>
    match a with
    | ⟨0, _⟩ => rfl
    | ⟨1, _⟩ => rfl
    | ⟨2, _⟩ => rfl

/-- A bias spread over the batch rows and the items reads the bias of the unit. -/
private theorem biasSpread_apply (a : FVec Ideal S64 .f32) (b : Fin 4096) (i : Fin 20) (e : Fin 64) :
    broadcastInDim S4096x20x64 ![0, 1, 2] bcast_S1x1x64_S4096x20x64_0_1_2
        (broadcastInDim S1x1x64 ![2] bcast_S64_S1x1x64_2 a) (ix3 b i e)
      = a (ix1 e) := by
  refine (broadcastInDim_apply _ _ _ (ix3 b i e) (ix3 (0 : Fin 1) (0 : Fin 1) e) fun a =>
    match a with
    | ⟨0, _⟩ => rfl
    | ⟨1, _⟩ => rfl
    | ⟨2, _⟩ => rfl).trans ?_
  exact broadcastInDim_apply _ _ a (ix3 (0 : Fin 1) (0 : Fin 1) e) (ix1 e) fun a =>
    match a with
    | ⟨0, _⟩ => rfl

/-- The sum over the neighbour axis from the word of zero: the plain sum over the twenty neighbours. -/
private theorem neighbourSum_apply (x : FVec Ideal S4096x20x20x64 .f32) (b : Fin 4096) (i : Fin 20) (d : Fin 64) :
    Host.reduceAdd (F := Ideal) x (constant S_ .f32 0x00000000#32) reducesTo_S4096x20x20x64_S4096x20x64_d2 h_S_ (ix3 b i d)
      = ∑ j : Fin 20, x (ix4 b i j d) := by
  rw [hostReduceAdd_apply,
    Ideal.hostReduceAdd_single _ (by decide : S4096x20x20x64.Reduces [2] S4096x20x64) x _ (ix3 b i d)]
  show Ideal.ofBits .f32 0x00000000#32 + ∑ j : Fin 20, x (_) = _
  rw [Ideal.ofBits_zero_f32, zero_add]
  refine Finset.sum_congr rfl fun j _ => congrArg x (funext fun a => Fin.ext ?_)
  match a with
  | ⟨0, _⟩ => rfl
  | ⟨1, _⟩ => rfl
  | ⟨2, _⟩ => rfl
  | ⟨3, _⟩ => rfl

/-! ### The closing leaky rectifier, and the result -/

/-- The leaky rectifier on the result array reads the rectifier of the element. -/
private theorem refLeakyOut_apply (z : FVec Ideal S4096x20x64 .f32) (j : S4096x20x64.Idx) :
    refLeakyOut (F := Ideal) z j = lrelu (z j) := by
  unfold refLeakyOut lrelu
  rw [select_apply, cmpf_apply, mulf_apply, broadcastInDim_scalar_apply, broadcastInDim_scalar_apply]
  rfl

theorem refOut_apply (a0 : FVec Ideal S4096x21x64 .f32) (al : FVec Ideal S4096x20x20x1 .f32) (a5 : FVec Ideal S64x64 .f32)
    (a6 : FVec Ideal S64 .f32) (a7 : FVec Ideal S64x64 .f32) (a8 : FVec Ideal S64 .f32) (b : Fin 4096) (i : Fin 20) (e : Fin 64) :
    refOut (F := Ideal) a0 al a5 a6 a7 a8 (ix3 b i e)
      = outFromAt a0 a5 a6 a7 a8 (fun i' j' => al (ix4 b i' j' (0 : Fin 1))) b i e := by
  unfold refOut
  simp only []
  rw [refLeakyOut_apply]
  unfold outFromAt outFrom dense attended userRow itemRows mat vec
  congr 1
  -- the user-item product, and the second dense layer
  rw [addf_apply, addf_apply, mulf_apply, userSpread_apply, refUser_apply, refItems_apply, biasSpread_apply, dense_dot_apply]
  congr 2
  refine Finset.sum_congr rfl fun d _ => ?_
  congr 1
  -- the first dense layer with the item added back
  rw [addf_apply, addf_apply, refItems_apply, biasSpread_apply, dense_dot_apply]
  congr 2
  refine Finset.sum_congr rfl fun d' _ => ?_
  congr 1
  -- the weighted average of the items
  rw [neighbourSum_apply]
  refine Finset.sum_congr rfl fun j _ => ?_
  rw [mulf_apply, weightSpread_apply, itemSpread_apply, refItems_apply]

end Cert.ReferenceIdeal.RefValue

end
-- ==== Proof.RefRead.lean ====
/-
  The reference's term is the specification: read at (b, i, e) it is the output of batch row b at (i, e), the three stages
  (scores, softmax, output from the weights) composed.
-/
import proofs.«179504_j42984032698946_1_alg».proof.Proof.RefScoresRead
import proofs.«179504_j42984032698946_1_alg».proof.Proof.RefWeightsRead
import proofs.«179504_j42984032698946_1_alg».proof.Proof.RefOutRead

noncomputable section

namespace Cert.ReferenceIdeal.RefValue

open Cert.ReferenceIdeal Cert.ReferenceIdeal.Gen Idealize.ShloMosaic Idealize.ShloMosaic.ValueIdx Cert.ItemAttention

theorem refTerm_apply (a0 : FVec Ideal S4096x21x64 .f32) (a1 : FVec Ideal S64x64 .f32) (a2 : FVec Ideal S64 .f32)
    (a3 : FVec Ideal S1x64 .f32) (a4 : FVec Ideal S1 .f32) (a5 : FVec Ideal S64x64 .f32) (a6 : FVec Ideal S64 .f32)
    (a7 : FVec Ideal S64x64 .f32) (a8 : FVec Ideal S64 .f32) (b : Fin 4096) (i : Fin 20) (e : Fin 64) :
    refTerm (F := Ideal) a0 a1 a2 a3 a4 a5 a6 a7 a8 (ix3 b i e) = resultAt a0 a1 a2 a3 a4 a5 a6 a7 a8 b i e := by
  unfold refTerm
  rw [refOut_apply, resultAt_eq]
  congr 1
  funext i' j'
  rw [refWeights_apply]
  congr 1
  funext j''
  exact refScores_apply a0 a1 a2 a3 a4 b i' j''

theorem refTerm_eq (a0 : FVec Ideal S4096x21x64 .f32) (a1 : FVec Ideal S64x64 .f32) (a2 : FVec Ideal S64 .f32)
    (a3 : FVec Ideal S1x64 .f32) (a4 : FVec Ideal S1 .f32) (a5 : FVec Ideal S64x64 .f32) (a6 : FVec Ideal S64 .f32)
    (a7 : FVec Ideal S64x64 .f32) (a8 : FVec Ideal S64 .f32) :
    refTerm (F := Ideal) a0 a1 a2 a3 a4 a5 a6 a7 a8 = result a0 a1 a2 a3 a4 a5 a6 a7 a8 := by
  funext y
  obtain ⟨b, i, e, rfl⟩ : ∃ (b : Fin 4096) (i : Fin 20) (e : Fin 64), y = ix3 b i e := ⟨y 0, y 1, y 2, eq_ix3 y⟩
  rw [refTerm_apply, result_apply]

end Cert.ReferenceIdeal.RefValue

end
-- ==== Proof.lean ====
/-
  The kernel computes, for each of 4096 batch rows, pairwise additive attention over the row's twenty items: a score for
  every pair of items from a dense layer of their sum, a softmax of each item's scores over its neighbours, the weighted
  average of the items, two dense layers and a closing leaky rectifier over the sum with the user-item product. It works
  on 64 batch rows per grid point with the pairs flattened into one long axis and the matrix products on transposed
  weights; the reference writes the same formula with einsum over the whole arrays. At the ideal values the two are one
  function of the argument arrays, index by index: every step of the one is the same step of the other, and only the order
  of the sums and the layout differ. The frames of the two kernel programs are the generated ones; the reference's frame
  is its run with the result dropped; there is nothing to preserve (the idealization rewrote no operation).
-/
import proofs.«179504_j42984032698946_1_alg».proof.Defs
import proofs.«179504_j42984032698946_1_alg».proof.Proof.Gen.Kernel
import proofs.«179504_j42984032698946_1_alg».proof.Proof.Gen.Kernel.Skeleton
import proofs.«179504_j42984032698946_1_alg».proof.Proof.Gen.Kernel.Launch
import proofs.«179504_j42984032698946_1_alg».proof.Proof.Gen.Kernel.Points
import proofs.«179504_j42984032698946_1_alg».proof.Proof.Gen.Kernel.Frame
import proofs.«179504_j42984032698946_1_alg».proof.Proof.Gen.KernelIdeal
import proofs.«179504_j42984032698946_1_alg».proof.Proof.Gen.KernelIdeal.Skeleton
import proofs.«179504_j42984032698946_1_alg».proof.Proof.Gen.KernelIdeal.Launch
import proofs.«179504_j42984032698946_1_alg».proof.Proof.Gen.KernelIdeal.Points
import proofs.«179504_j42984032698946_1_alg».proof.Proof.Gen.KernelIdeal.Frame
import proofs.«179504_j42984032698946_1_alg».proof.Proof.Gen.KernelIdeal.Value
import proofs.«179504_j42984032698946_1_alg».proof.Proof.Gen.ReferenceIdeal
import proofs.«179504_j42984032698946_1_alg».proof.Proof.Gen.Pre_finite_inputs
import proofs.«179504_j42984032698946_1_alg».proof.Proof.KernelArray
import proofs.«179504_j42984032698946_1_alg».proof.Proof.RefRun
import proofs.«179504_j42984032698946_1_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_reference : Cert.frame_ReferenceIdeal := fun m ρ _ =>
  (θ_run Cert.ReferenceIdeal.defs _ _).mono (fun _ h c => (h c).2) (Cert.ReferenceIdeal.RefValue.run (F := Ideal) m ρ)

/-- Both runs end with the result array at the specification's result of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨h0, h1, h2, h3, h4, h5, h6, h7, h8⟩ := hagree c
  rw [h0, h1, h2, h3, h4, h5, h6, h7, h8]
  exact Cert.ReferenceIdeal.RefValue.refTerm_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
